-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x4096 : Shape := ⟨3, ![4, 512, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x512x4096 .f32) (main_arg1 : IVec S512x11008 32) (main_arg2 : IVec S32x1376 32) (main_arg3 : FVec F S32x11008 .f32) (main_arg4 : FVec F S11008 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x512x4096 : Shape := ⟨3, ![4, 512, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S2048x4096 : Shape := ⟨2, ![2048, 4096]⟩
abbrev S1x11008 : Shape := ⟨2, ![1, 11008]⟩
abbrev S_ : Shape := ⟨0, ![]⟩
abbrev S32x1376x1 : Shape := ⟨3, ![32, 1376, 1]⟩
abbrev S32x1376x8 : Shape := ⟨3, ![32, 1376, 8]⟩
abbrev S2048x11008 : Shape := ⟨2, ![2048, 11008]⟩
abbrev S256x256 : Shape := ⟨2, ![256, 256]⟩
abbrev S16x256 : Shape := ⟨2, ![16, 256]⟩
abbrev S1x256 : Shape := ⟨2, ![1, 256]⟩
abbrev S2048x256 : Shape := ⟨2, ![2048, 256]⟩
abbrev S256x1x256 : Shape := ⟨3, ![256, 1, 256]⟩
abbrev S256x8x256 : Shape := ⟨3, ![256, 8, 256]⟩
abbrev S16x1x256 : Shape := ⟨3, ![16, 1, 256]⟩
abbrev S16x128x256 : Shape := ⟨3, ![16, 128, 256]⟩
abbrev S2048x2048 : Shape := ⟨2, ![2048, 2048]⟩
abbrev S4x512x11008 : Shape := ⟨3, ![4, 512, 11008]⟩

abbrev nBuf : Space → Nat
  | .hbm => 68
  | .vmem => 11
  | .smem => 0
  | _ => 0

abbrev bufTy : (tb : Table) → Fin (tcTables nBuf tb) → BufTy
  | .hbm, ⟨0, _⟩ => ⟨S4x512x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S2048x4096, .f32⟩
  | .hbm, ⟨6, _⟩ => ⟨S2048x4096, .bf16⟩
  | .hbm, ⟨7, _⟩ => ⟨S1x11008, .f32⟩
  | .hbm, ⟨8, _⟩ => ⟨S_, .i32⟩
  | .hbm, ⟨9, _⟩ => ⟨S32x1376, .i32⟩
  | .hbm, ⟨10, _⟩ => ⟨S32x1376, .i32⟩
  | .hbm, ⟨11, _⟩ => ⟨S_, .i32⟩
  | .hbm, ⟨12, _⟩ => ⟨S32x1376, .i32⟩
  | .hbm, ⟨13, _⟩ => ⟨S32x1376, .i32⟩
  | .hbm, ⟨14, _⟩ => ⟨S_, .i32⟩
  | .hbm, ⟨15, _⟩ => ⟨S32x1376, .i32⟩
  | .hbm, ⟨16, _⟩ => ⟨S32x1376, .i32⟩
  | .hbm, ⟨17, _⟩ => ⟨S_, .i32⟩
  | .hbm, ⟨18, _⟩ => ⟨S32x1376, .i32⟩
  | .hbm, ⟨19, _⟩ => ⟨S32x1376, .i32⟩
  | .hbm, ⟨20, _⟩ => ⟨S_, .i32⟩
  | .hbm, ⟨21, _⟩ => ⟨S32x1376, .i32⟩
  | .hbm, ⟨22, _⟩ => ⟨S32x1376, .i32⟩
  | .hbm, ⟨23, _⟩ => ⟨S_, .i32⟩
  | .hbm, ⟨24, _⟩ => ⟨S32x1376, .i32⟩
  | .hbm, ⟨25, _⟩ => ⟨S32x1376, .i32⟩
  | .hbm, ⟨26, _⟩ => ⟨S_, .i32⟩
  | .hbm, ⟨27, _⟩ => ⟨S32x1376, .i32⟩
  | .hbm, ⟨28, _⟩ => ⟨S32x1376, .i32⟩
  | .hbm, ⟨29, _⟩ => ⟨S_, .i32⟩
  | .hbm, ⟨30, _⟩ => ⟨S32x1376, .i32⟩
  | .hbm, ⟨31, _⟩ => ⟨S32x1376, .i32⟩
  | .hbm, ⟨32, _⟩ => ⟨S_, .i32⟩
  | .hbm, ⟨33, _⟩ => ⟨S32x1376, .i32⟩
  | .hbm, ⟨34, _⟩ => ⟨S32x1376, .i32⟩
  | .hbm, ⟨35, _⟩ => ⟨S_, .i32⟩
  | .hbm, ⟨36, _⟩ => ⟨S32x1376, .i32⟩
  | .hbm, ⟨37, _⟩ => ⟨S32x1376, .i32⟩
  | .hbm, ⟨38, _⟩ => ⟨S_, .i32⟩
  | .hbm, ⟨39, _⟩ => ⟨S32x1376, .i32⟩
  | .hbm, ⟨40, _⟩ => ⟨S32x1376, .i32⟩
  | .hbm, ⟨41, _⟩ => ⟨S_, .i32⟩
  | .hbm, ⟨42, _⟩ => ⟨S32x1376, .i32⟩
  | .hbm, ⟨43, _⟩ => ⟨S32x1376, .i32⟩
  | .hbm, ⟨44, _⟩ => ⟨S_, .i32⟩
  | .hbm, ⟨45, _⟩ => ⟨S32x1376, .i32⟩
  | .hbm, ⟨46, _⟩ => ⟨S32x1376, .i32⟩
  | .hbm, ⟨47, _⟩ => ⟨S_, .i32⟩
  | .hbm, ⟨48, _⟩ => ⟨S32x1376, .i32⟩
  | .hbm, ⟨49, _⟩ => ⟨S32x1376, .i32⟩
  | .hbm, ⟨50, _⟩ => ⟨S_, .i32⟩
  | .hbm, ⟨51, _⟩ => ⟨S32x1376, .i32⟩
  | .hbm, ⟨52, _⟩ => ⟨S32x1376, .i32⟩
  | .hbm, ⟨53, _⟩ => ⟨S_, .i32⟩
  | .hbm, ⟨54, _⟩ => ⟨S32x1376, .i32⟩
  | .hbm, ⟨55, _⟩ => ⟨S32x1376, .i32⟩
  | .hbm, ⟨56, _⟩ => ⟨S32x1376x1, .i32⟩
  | .hbm, ⟨57, _⟩ => ⟨S32x1376x1, .i32⟩
  | .hbm, ⟨58, _⟩ => ⟨S32x1376x1, .i32⟩
  | .hbm, ⟨59, _⟩ => ⟨S32x1376x1, .i32⟩
  | .hbm, ⟨60, _⟩ => ⟨S32x1376x1, .i32⟩
  | .hbm, ⟨61, _⟩ => ⟨S32x1376x1, .i32⟩
  | .hbm, ⟨62, _⟩ => ⟨S32x1376x1, .i32⟩
  | .hbm, ⟨63, _⟩ => ⟨S32x1376x1, .i32⟩
  | .hbm, ⟨64, _⟩ => ⟨S32x1376x8, .i32⟩
  | .hbm, ⟨65, _⟩ => ⟨S32x11008, .i32⟩
  | .hbm, ⟨66, _⟩ => ⟨S2048x11008, .f32⟩
  | .hbm, ⟨67, _⟩ => ⟨S4x512x11008, .f32⟩
  | .local _ .vmem, ⟨0, _⟩ => ⟨S2048x4096, .bf16⟩
  | .local _ .vmem, ⟨1, _⟩ => ⟨S256x256, .i32⟩
  | .local _ .vmem, ⟨2, _⟩ => ⟨S256x256, .i32⟩
  | .local _ .vmem, ⟨3, _⟩ => ⟨S16x256, .i32⟩
  | .local _ .vmem, ⟨4, _⟩ => ⟨S16x256, .i32⟩
  | .local _ .vmem, ⟨5, _⟩ => ⟨S16x256, .f32⟩
  | .local _ .vmem, ⟨6, _⟩ => ⟨S16x256, .f32⟩
  | .local _ .vmem, ⟨7, _⟩ => ⟨S1x256, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_c_5 : Ref sig .tc := ⟨.hbm, 26, rfl⟩
abbrev main_v15 : Ref sig .tc := ⟨.hbm, 27, rfl⟩
abbrev main_v16 : Ref sig .tc := ⟨.hbm, 28, rfl⟩
abbrev main_c_6 : Ref sig .tc := ⟨.hbm, 29, rfl⟩
abbrev main_v17 : Ref sig .tc := ⟨.hbm, 30, rfl⟩
abbrev main_v18 : Ref sig .tc := ⟨.hbm, 31, rfl⟩
abbrev main_c_7 : Ref sig .tc := ⟨.hbm, 32, rfl⟩
abbrev main_v19 : Ref sig .tc := ⟨.hbm, 33, rfl⟩
abbrev main_v20 : Ref sig .tc := ⟨.hbm, 34, rfl⟩
abbrev main_c_8 : Ref sig .tc := ⟨.hbm, 35, rfl⟩
abbrev main_v21 : Ref sig .tc := ⟨.hbm, 36, rfl⟩
abbrev main_v22 : Ref sig .tc := ⟨.hbm, 37, rfl⟩
abbrev main_c_9 : Ref sig .tc := ⟨.hbm, 38, rfl⟩
abbrev main_v23 : Ref sig .tc := ⟨.hbm, 39, rfl⟩
abbrev main_v24 : Ref sig .tc := ⟨.hbm, 40, rfl⟩
abbrev main_c_10 : Ref sig .tc := ⟨.hbm, 41, rfl⟩
abbrev main_v25 : Ref sig .tc := ⟨.hbm, 42, rfl⟩
abbrev main_v26 : Ref sig .tc := ⟨.hbm, 43, rfl⟩
abbrev main_c_11 : Ref sig .tc := ⟨.hbm, 44, rfl⟩
abbrev main_v27 : Ref sig .tc := ⟨.hbm, 45, rfl⟩
abbrev main_v28 : Ref sig .tc := ⟨.hbm, 46, rfl⟩
abbrev main_c_12 : Ref sig .tc := ⟨.hbm, 47, rfl⟩
abbrev main_v29 : Ref sig .tc := ⟨.hbm, 48, rfl⟩
abbrev main_v30 : Ref sig .tc := ⟨.hbm, 49, rfl⟩
abbrev main_c_13 : Ref sig .tc := ⟨.hbm, 50, rfl⟩
abbrev main_v31 : Ref sig .tc := ⟨.hbm, 51, rfl⟩
abbrev main_v32 : Ref sig .tc := ⟨.hbm, 52, rfl⟩
abbrev main_c_14 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![43, 2], ![false, false]⟩

def k0_mult1 (i : grid0.Coords) : BitVec 32 :=
  let arg1 : BitVec 32 := BitVec.ofNat 32 (i 1).val
  let c2048_i32 : BitVec 32 := 2048#32
  let v63 : BitVec 32 := Scalar.muli arg1 c2048_i32
  v63
def k0_off1 (i : grid0.Coords) : Fin 2 → Nat :=
  let c0_14 : Index := 0#32
  let arg1 : BitVec 32 := BitVec.ofNat 32 (i 1).val
  let c2048_i32 : BitVec 32 := 2048#32
  let v63 : BitVec 32 := Scalar.muli arg1 c2048_i32
  let v64 : BitVec 32 := v63
  let v65 : Index := Scalar.indexCast v64
  ![0, v65.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4x512x4096_S2048x4096 : S4x512x4096.ShapeCasts S2048x4096
  bitsLt_bf16_f32 : FTy.bits .bf16 < FTy.bits .f32
  shapeCasts_S11008_S1x11008 : S11008.ShapeCasts S1x11008
  bcast_S_S32x1376 : S_.BroadcastsInDim S32x1376 (![] : Fin 0 → Fin S32x1376.rank)
  bcast_S32x1376_S32x1376x1_0_1 : S32x1376.BroadcastsInDim S32x1376x1 (![0, 1] : Fin 2 → Fin S32x1376x1.rank)
  concatenates_S32x1376x1_S32x1376x1_S32x1376x1_S32x1376x1_S32x1376x1_S32x1376x1_S32x1376x1_S32x1376x1_S32x1376x8_d2 : Shape.Concatenates [S32x1376x1, S32x1376x1, S32x1376x1, S32x1376x1, S32x1376x1, S32x1376x1, S32x1376x1, S32x1376x1] S32x1376x8 2
  shapeCasts_S32x1376x8_S32x11008 : S32x1376x8.ShapeCasts S32x11008
  inb_S2048x256_S2048x256_0_0 : ∀ a, (![0, 0] : Fin 2 → Nat) a + S2048x256.size a ≤ S2048x256.size a
  h_S2048x256 : 0 < S2048x256.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S256x256_S256x256_0_0 : ∀ a, (![0, 0] : Fin 2 → Nat) a + S256x256.size a ≤ S256x256.size a
  h_S256x256 : 0 < S256x256.numel
  shapeCasts_S256x256_S256x1x256 : S256x256.ShapeCasts S256x1x256
  concatenates_S256x1x256_S256x1x256_S256x1x256_S256x1x256_S256x1x256_S256x1x256_S256x1x256_S256x1x256_S256x8x256_d1 : Shape.Concatenates [S256x1x256, S256x1x256, S256x1x256, S256x1x256, S256x1x256, S256x1x256, S256x1x256, S256x1x256] S256x8x256 1
  shapeCasts_S256x8x256_S2048x256 : S256x8x256.ShapeCasts S2048x256
  shapeCasts_S16x256_S16x1x256 : S16x256.ShapeCasts S16x1x256
  shapeCasts_S16x1x256_S16x1x256 : S16x1x256.ShapeCasts S16x1x256
  broadcasts_S16x1x256_S16x128x256 : S16x1x256.Broadcasts S16x128x256
  shapeCasts_S16x128x256_S2048x256 : S16x128x256.ShapeCasts S2048x256
  h_S2048x2048 : 0 < S2048x2048.numel
  shapeCasts_S2048x2048_S2048x2048 : S2048x2048.ShapeCasts S2048x2048
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x11008_S4x512x11008 : S2048x11008.ShapeCasts S4x512x11008
  dot_S2048x2048_S2048x256_S2048x256_1_0_0_1_n_n_wf : DotDims.WF S2048x2048 S2048x256 S2048x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x2048.size a ≤ S2048x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S2048x4096.size a
  hwx0_0 : ∀ i : grid0.Coords, EltTy.bits .bf16 = 32 ∨ (Rect.block (s := S2048x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S512x11008.size a
  hwx0_1 : ∀ i : grid0.Coords, EltTy.bits .i32 = 32 ∨ (Rect.block (s := S512x11008) S256x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S32x11008.size a
  hwx0_2 : ∀ i : grid0.Coords, EltTy.bits .i32 = 32 ∨ (Rect.block (s := S32x11008) S16x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S32x11008.size a
  hwx0_3 : ∀ i : grid0.Coords, EltTy.bits .f32 = 32 ∨ (Rect.block (s := S32x11008) S16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x11008.size a
  hwx0_5 : ∀ i : grid0.Coords, EltTy.bits .f32 = 32 ∨ (Rect.block (s := S2048x11008) S2048x256.size (cc0_transform_5 i) (hinb0_5 i)).WholeWords (EltTy.packing .f32)

variable [Facts₀]

def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf

abbrev win0_0 : Pipeline.Window sig grid0 :=
  Pipeline.Window.ofSpec (Memref.whole main_v1) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x512x4096 : Shape := ⟨3, ![4, 512, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S32x128x11008 : Shape := ⟨3, ![32, 128, 11008]⟩
abbrev S4x512x11008 : Shape := ⟨3, ![4, 512, 11008]⟩
abbrev S1x1x11008 : Shape := ⟨3, ![1, 1, 11008]⟩

abbrev nBuf : Space → Nat
  | .hbm => 41
  | .vmem => 0
  | .smem => 0
  | _ => 0

abbrev bufTy : (tb : Table) → Fin (tcTables nBuf tb) → BufTy
  | .hbm, ⟨0, _⟩ => ⟨S4x512x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S512x1x11008, .i32⟩
  | .hbm, ⟨13, _⟩ => ⟨S1x8x1, .i32⟩
  | .hbm, ⟨14, _⟩ => ⟨S512x8x11008, .i32⟩
  | .hbm, ⟨15, _⟩ => ⟨S512x8x11008, .i32⟩
  | .hbm, ⟨16, _⟩ => ⟨S512x8x11008, .i32⟩
  | .hbm, ⟨17, _⟩ => ⟨S_, .i32⟩
  | .hbm, ⟨18, _⟩ => ⟨S512x8x11008, .i32⟩
  | .hbm, ⟨19, _⟩ => ⟨S512x8x11008, .i32⟩
  | .hbm, ⟨20, _⟩ => ⟨S4096x11008, .i32⟩
  | .hbm, ⟨21, _⟩ => ⟨S32x1376x1, .i32⟩
  | .hbm, ⟨22, _⟩ => ⟨S1x1x8, .i32⟩
  | .hbm, ⟨23, _⟩ => ⟨S32x1376x8, .i32⟩
  | .hbm, ⟨24, _⟩ => ⟨S32x1376x8, .i32⟩
  | .hbm, ⟨25, _⟩ => ⟨S32x1376x8, .i32⟩
  | .hbm, ⟨26, _⟩ => ⟨S_, .i32⟩
  | .hbm, ⟨27, _⟩ => ⟨S32x1376x8, .i32⟩
  | .hbm, ⟨28, _⟩ => ⟨S32x1376x8, .i32⟩
  | .hbm, ⟨29, _⟩ => ⟨S32x11008, .i32⟩
  | .hbm, ⟨30, _⟩ => ⟨S32x128x11008, .i32⟩
  | .hbm, ⟨31, _⟩ => ⟨S4096x11008, .i32⟩
  | .hbm, ⟨32, _⟩ => ⟨S32x128x11008, .f32⟩
  | .hbm, ⟨33, _⟩ => ⟨S4096x11008, .f32⟩
  | .hbm, ⟨34, _⟩ => ⟨S4096x11008, .i32⟩
  | .hbm, ⟨35, _⟩ => ⟨S4096x11008, .f32⟩
  | .hbm, ⟨36, _⟩ => ⟨S4096x11008, .f32⟩
  | .hbm, ⟨37, _⟩ => ⟨S4x512x11008, .f32⟩
  | .hbm, ⟨38, _⟩ => ⟨S1x1x11008, .f32⟩
  | .hbm, ⟨39, _⟩ => ⟨S4x512x11008, .f32⟩
  | .hbm, ⟨40, _⟩ => ⟨S4x512x11008, .f32⟩
  | _, _ => ⟨S4x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  bcast_S11008_S1x1x11008_2 : S11008.BroadcastsInDim S1x1x11008 (![2] : Fin 1 → Fin S1x1x11008.rank)
  bcast_S1x1x11008_S4x512x11008_0_1_2 : S1x1x11008.BroadcastsInDim S4x512x11008 (![0, 1, 2] : Fin 3 → Fin S4x512x11008.rank)
  dot_S4x512x4096_S4096x11008_S4x512x11008_2_0_01_1_n_n_wf : DotDims.WF S4x512x4096 S4096x11008 S4x512x11008 [2] [0] [0, 1] [1] [] []

variable [Facts₀]

def dot_S4x512x4096_S4096x11008_S4x512x11008_2_0_01_1_n_n : DotDims S4x512x4096 S4096x11008 S4x512x11008 where
  lhsContracting := [2]
  rhsContracting := [0]
  lhsNonContracting := [0, 1]
  rhsNonContracting := [1]
  lhsBatch := []
  rhsBatch := []
  wf := dot_S4x512x4096_S4096x11008_S4x512x11008_2_0_01_1_n_n_wf

class Facts : Prop extends Facts₀ where

variable [Facts]
-- ==== Proof.AroundB.lean ====
/-
  The program around its one pipelined region, and what the region's windows hold.

  The program is sixty-one host operations (the activations flattened and narrowed, the bias made a row, the zero
  points unpacked: eight shifts and masks, eight unit axes, one concatenation, one flattening), the region, and one
  host operation after it (the result unflattened). This module states what every array holds when the region is
  entered (`V`), reduces the program to the region continued by the last operation (`hmain`), shows that the
  operations around the region never write an argument array, names each window's block at a grid point (`iblk`), and
  derives the frame statement — every argument array ends as launched — from any run to the library's frame post.

  The body branches on the second grid coordinate only: it clears the accumulator where the coordinate is 0 and adds
  the bias where it is 1; with two steps along that axis the two conditions are the even and the odd points.
-/
import proofs.«403328_j39084202394119_3_alg».proof.Proof.Gen.Kernel.Launch
import proofs.«403328_j39084202394119_3_alg».proof.Proof.Gen.Kernel.Skeleton
import proofs.«403328_j39084202394119_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the launch contents after the host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the one operation after it: it reduces to
    the region continued by that operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's frame post -/

/-- Every argument array ends as launched: the weights and the scales are staged inputs, which the pipeline only reads;
    the activations, the packed zero points and the bias are staged by no window (the region reads arrays computed from
    them), bypass the region, and are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).1 3).trans (((dats 0 c).arrAt_in 3 rfl _).trans ((hA c 3).trans (V_main_arg3 m c))),
     ((h c).2 main_arg4 (Pipeline.mem_restRefs_of main_arg4 (by decide) (by decide))).trans (W_main_arg4 m dats c)⟩) h

/-! ## The body's two branch conditions -/

/-- The body clears the accumulator where the second grid coordinate is 0. -/
abbrev condFirst (i : grid0.Coords) : Prop := (Scalar.cmpi .ne (Scalar.extui (Scalar.cmpi .eq (BitVec.ofNat 32 (i 1).val) 0#32)) 0#32) = 1#1
/-- That is at the even points. -/
theorem hcondFirst : ∀ t : Fin cfg0.N, condFirst (grid0.coords t) ↔ t.val % 2 = 0 :=
  (by decide +kernel : ∀ t : Fin grid0.N, condFirst (grid0.coords t) ↔ t.val % 2 = 0)

/-- The body adds the bias where the second grid coordinate is 1. -/
abbrev condLast (i : grid0.Coords) : Prop := (Scalar.cmpi .ne (Scalar.extui (Scalar.cmpi .eq (BitVec.ofNat 32 (i 1).val) 1#32)) 0#32) = 1#1
/-- That is at the odd points. -/
theorem hcondLast : ∀ t : Fin cfg0.N, condLast (grid0.coords t) ↔ t.val % 2 = 1 :=
  (by decide +kernel : ∀ t : Fin grid0.N, condLast (grid0.coords t) ↔ t.val % 2 = 1)

/-! ## The staging memrefs the body is called with -/

/-- One staging buffer of the output window, through which its contents are stated. -/
abbrev VO : View sig .tc .vmem S2048x256 .f32 := (Memref.whole cc0_stg5_0 : Memref sig .tc .vmem S2048x256 .f32).view

abbrev ms0 (t : Fin cfg0.N) : Memref sig .tc .vmem S2048x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .f32 := win0_5.stage (cfg0.slots t 5)
abbrev hs5 (t : Fin cfg0.N) : (ms5 t).IsWhole := hstage0_5 ((cfg0.slots t 5).cast nbuf0_5)

end Cert.Kernel.Around

end
-- ==== Proof.RunAB.lean ====
/-
  The body at an even grid point (the second coordinate is 0), run on whole staging memrefs.

  At such a point the body stores zero over the whole output block, reads the block back, adds the product of the
  activations' column half with the dequantised weight tile, stores the sum over the whole block, and skips the bias.
  The run is found by symbolic execution of the body's memory operations; what it leaves in the output buffer is the
  list of the two stores (the later first), which is the witness of the subtype.
-/
import proofs.«403328_j39084202394119_3_alg».proof.Proof.AroundB

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref at an even point, with the proof that the body,
    given the five input memrefs whole at their contents and the output's whole at anything, runs to any
    continuation that takes the inputs back unchanged and the output's buffer with those pieces written. -/
noncomputable def kernelRunA (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : condFirst i) (hc1 : ¬condLast i) (x0 : Vec F S2048x4096 .bf16) (x1 : Vec F S256x256 .i32) (x2 : Vec F S16x256 .i32) (x3 : Vec F S16x256 .f32) (x4 : Vec F S1x256 .f32) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__qlinear_kernel i arg2 harg2 arg3 harg3 arg4 harg4 arg5 harg5 arg6 harg6 arg7 harg7) K } := by
  refine ⟨?_, fun E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Around

end
-- ==== Proof.RunBB.lean ====
/-
  The body at an odd grid point (the second coordinate is 1), run on whole staging memrefs.

  At such a point the body leaves the accumulator as the point before left it, reads it, adds the product of the
  activations' other column half with the dequantised weight tile, stores the sum over the whole block, reads that
  back, adds the bias row to every row, and stores the result over the whole block. The run is found by symbolic
  execution; what it leaves in the output buffer is the list of the two stores (the later first).
-/
import proofs.«403328_j39084202394119_3_alg».proof.Proof.RunAB

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref at an odd point, with the proof that the body,
    given the five input memrefs whole at their contents and the output's whole at what the point before left, runs
    to any continuation that takes the inputs back unchanged and the output's buffer with those pieces written. -/
noncomputable def kernelRunB (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : ¬condFirst i) (hc1 : condLast i) (x0 : Vec F S2048x4096 .bf16) (x1 : Vec F S256x256 .i32) (x2 : Vec F S16x256 .i32) (x3 : Vec F S16x256 .f32) (x4 : Vec F S1x256 .f32) (xo : Vec F S2048x256 .f32) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__qlinear_kernel i arg2 harg2 arg3 harg3 arg4 harg4 arg5 harg5 arg6 harg6 arg7 harg7) K } := by
  refine ⟨?_, fun E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.Kernel.Around

end
-- ==== Proof.FrameB.lean ====
/-
  The frame of the program: it runs to the end, faults nowhere, and leaves its argument arrays as launched.

  What the output window's staging buffer holds after the body is defined point by point: at an even point the two
  stores of that case read back (over anything: they cover the block); at an odd point the two stores of that case,
  which start from what the even point before left — the pipeline writes the output block back only after odd points,
  so between an even point and the next odd one the buffer is kept. With the inputs' buffers at their blocks this is
  the proof data the library's launch theorem asks for; the body obligation is the two case runs, selected by the
  parity of the point; the run continues with the one host operation after the region.
-/
import proofs.«403328_j39084202394119_3_alg».proof.Proof.RunBB

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The two stores of an even point tile the output block, so they cover it. -/
theorem coverA (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : condFirst i) (hc1 : ¬condLast i) (x0 : Vec F S2048x4096 .bf16) (x1 : Vec F S256x256 .i32) (x2 : Vec F S16x256 .i32) (x3 : Vec F S16x256 .f32) (x4 : Vec F S1x256 .f32) (y : S2048x256.Idx) :
    ∃ pc ∈ (kernelRunA c i arg2 harg2 arg3 harg3 arg4 harg4 arg5 harg5 arg6 harg6 arg7 harg7 hc0 hc1 x0 x1 x2 x3 x4).1, y ∈ pc.1.set :=
  View.cover_of_tiledL (kernelRunA c i arg2 harg2 arg3 harg3 arg4 harg4 arg5 harg5 arg6 harg6 arg7 harg7 hc0 hc1 x0 x1 x2 x3 x4).1 S2048x256.size (by sl_kernel_rfl) y

/-- What an even point leaves in the output's buffer: its stores read back over anything. -/
def outA (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : condFirst i) (hc1 : ¬condLast i) (x0 : Vec F S2048x4096 .bf16) (x1 : Vec F S256x256 .i32) (x2 : Vec F S16x256 .i32) (x3 : Vec F S16x256 .f32) (x4 : Vec F S1x256 .f32) : Vec F S2048x256 .f32 :=
  VO.read (Elt F) (VO.writes (Elt F) VO.junk (kernelRunA c i arg2 harg2 arg3 harg3 arg4 harg4 arg5 harg5 arg6 harg6 arg7 harg7 hc0 hc1 x0 x1 x2 x3 x4).1)

/-- The two stores of an odd point tile the output block, so they cover it. -/
theorem coverB (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : ¬condFirst i) (hc1 : condLast i) (x0 : Vec F S2048x4096 .bf16) (x1 : Vec F S256x256 .i32) (x2 : Vec F S16x256 .i32) (x3 : Vec F S16x256 .f32) (x4 : Vec F S1x256 .f32) (xo : Vec F S2048x256 .f32) (y : S2048x256.Idx) :
    ∃ pc ∈ (kernelRunB c i arg2 harg2 arg3 harg3 arg4 harg4 arg5 harg5 arg6 harg6 arg7 harg7 hc0 hc1 x0 x1 x2 x3 x4 xo).1, y ∈ pc.1.set :=
  View.cover_of_tiledL (kernelRunB c i arg2 harg2 arg3 harg3 arg4 harg4 arg5 harg5 arg6 harg6 arg7 harg7 hc0 hc1 x0 x1 x2 x3 x4 xo).1 S2048x256.size (by sl_kernel_rfl) y

/-- What an odd point leaves in the output's buffer, from what the point before left (`xo`). -/
def outB (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : ¬condFirst i) (hc1 : condLast i) (x0 : Vec F S2048x4096 .bf16) (x1 : Vec F S256x256 .i32) (x2 : Vec F S16x256 .i32) (x3 : Vec F S16x256 .f32) (x4 : Vec F S1x256 .f32) (xo : Vec F S2048x256 .f32) : Vec F S2048x256 .f32 :=
  VO.read (Elt F) (VO.writes (Elt F) VO.junk (kernelRunB c i arg2 harg2 arg3 harg3 arg4 harg4 arg5 harg5 arg6 harg6 arg7 harg7 hc0 hc1 x0 x1 x2 x3 x4 xo).1)

/-! ## What the output's buffer holds after each point -/

/-- A point is even or odd, and the two branch conditions follow its parity. -/
theorem condsEven (t : Fin cfg0.N) (h : t.val % 2 = 0) : condFirst (grid0.coords t) ∧ ¬condLast (grid0.coords t) :=
  ⟨(hcondFirst t).mpr h, fun hl => by have := (hcondLast t).mp hl; omega⟩
theorem condsOdd (t : Fin cfg0.N) (h : ¬t.val % 2 = 0) : ¬condFirst (grid0.coords t) ∧ condLast (grid0.coords t) :=
  ⟨fun hf => h ((hcondFirst t).mp hf), (hcondLast t).mpr (by omega)⟩

/-- THE ACCUMULATION: the output's buffer after the body at position `n` — the even case run at the point's memrefs and
    input blocks, or the odd case run from what position `n - 1` left. -/
def outsAt (c : Dev nD) : (n : ℕ) → n < cfg0.N → Vec F S2048x256 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (condsEven ⟨0, hn⟩ (Nat.zero_mod _)).1 (condsEven ⟨0, hn⟩ (Nat.zero_mod _)).2 (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 2 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (condsEven ⟨n + 1, hn⟩ h0).1 (condsEven ⟨n + 1, hn⟩ h0).2 (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (condsOdd ⟨n + 1, hn⟩ h0).1 (condsOdd ⟨n + 1, hn⟩ h0).2 (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- At an even point: that case's contents. -/
theorem outsAt_even (c : Dev nD) (t : Fin cfg0.N) (h0 : t.val % 2 = 0) :
    outsAt m c t.val t.isLt = outA c (grid0.coords t) (ms0 t) (hs0 t) (ms1 t) (hs1 t) (ms2 t) (hs2 t) (ms3 t) (hs3 t) (ms4 t) (hs4 t) (ms5 t) (hs5 t) (condsEven t h0).1 (condsEven t h0).2 (iblk m c 0 t) (iblk m c 1 t) (iblk m c 2 t) (iblk m c 3 t) (iblk m c 4 t) := by
  obtain ⟨n, hn⟩ := t
  cases n with
  | zero => exact rfl
  | succ n => exact (dif_pos h0).trans rfl

/-- At an odd point: that case's contents, over what the point before left. -/
theorem outsAt_odd (c : Dev nD) (t : Fin cfg0.N) (h0 : ¬t.val % 2 = 0) :
    outsAt m c t.val t.isLt = outB c (grid0.coords t) (ms0 t) (hs0 t) (ms1 t) (hs1 t) (ms2 t) (hs2 t) (ms3 t) (hs3 t) (ms4 t) (hs4 t) (ms5 t) (hs5 t) (condsOdd t h0).1 (condsOdd t h0).2 (iblk m c 0 t) (iblk m c 1 t) (iblk m c 2 t) (iblk m c 3 t) (iblk m c 4 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt`; the invariant the scoped rest and the random-number register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- At an odd point the output's current staging buffer holds what the body left at the point before: the point is not
    the first, and the buffer was not written back between (write-backs follow odd points only). -/
theorem before_5_odd (c : Dev nD) (t : Fin cfg0.N) (h0 : ¬t.val % 2 = 0) (d) :
    (dats m 0 c).before 5 t d = (outsAt m c (t.val - 1) (Nat.lt_of_le_of_lt (Nat.sub_le _ _) t.isLt)) := by
  have hN : t.val < 86 := lt_of_lt_of_eq t.isLt (show cfg0.N = 86 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' memrefs hold their blocks; the parity of the point says which case it is in; at
    an odd point the output's buffer holds what the point before left; so that case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 2 = 0
  · rw [outsAt_even m c t h0]
    unfold outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ (condsEven t h0).1 (condsEven t h0).2 (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _)
  · rw [outsAt_odd m c t h0]
    simp only [before_5_odd m c t h0]
    unfold outB
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (condsOdd t h0).1 (condsOdd t h0).2 (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Around

end
-- ==== Proof.AroundI.lean ====
/-
  The program around its one pipelined region, and what the region's windows hold.

  The program is sixty-one host operations (the activations flattened and narrowed, the bias made a row, the zero
  points unpacked: eight shifts and masks, eight unit axes, one concatenation, one flattening), the region, and one
  host operation after it (the result unflattened). This module states what every array holds when the region is
  entered (`V`), reduces the program to the region continued by the last operation (`hmain`), shows that the
  operations around the region never write an argument array, names each window's block at a grid point (`iblk`), and
  derives the frame statement — every argument array ends as launched — from any run to the library's frame post.

  The body branches on the second grid coordinate only: it clears the accumulator where the coordinate is 0 and adds
  the bias where it is 1; with two steps along that axis the two conditions are the even and the odd points.
-/
import proofs.«403328_j39084202394119_3_alg».proof.Proof.Gen.KernelIdeal.Launch
import proofs.«403328_j39084202394119_3_alg».proof.Proof.Gen.KernelIdeal.Skeleton
import proofs.«403328_j39084202394119_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- A core's buffer contents when the region is entered: the launch contents after the host operations before it. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- The host operations allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host operations before the region, the region, and the one operation after it: it reduces to
    the region continued by that operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result, which no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    repeat' apply And.intro
    all_goals exact StableHlo.devRef_ne_of_ne (by decide)))

/-- No host operation after the region writes argument 0, and no window stages it: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes argument 2, and no window stages it: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes argument 4, and no window stages it: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's frame post -/

/-- Every argument array ends as launched: the weights and the scales are staged inputs, which the pipeline only reads;
    the activations, the packed zero points and the bias are staged by no window (the region reads arrays computed from
    them), bypass the region, and are written by no host operation. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).1 1).trans (((dats 0 c).arrAt_in 1 rfl _).trans ((hA c 1).trans (V_main_arg1 m c))),
     ((h c).2 main_arg2 (Pipeline.mem_restRefs_of main_arg2 (by decide) (by decide))).trans (W_main_arg2 m dats c),
     ((h c).1 3).trans (((dats 0 c).arrAt_in 3 rfl _).trans ((hA c 3).trans (V_main_arg3 m c))),
     ((h c).2 main_arg4 (Pipeline.mem_restRefs_of main_arg4 (by decide) (by decide))).trans (W_main_arg4 m dats c)⟩) h

/-! ## The body's two branch conditions -/

/-- The body clears the accumulator where the second grid coordinate is 0. -/
abbrev condFirst (i : grid0.Coords) : Prop := (Scalar.cmpi .ne (Scalar.extui (Scalar.cmpi .eq (BitVec.ofNat 32 (i 1).val) 0#32)) 0#32) = 1#1
/-- That is at the even points. -/
theorem hcondFirst : ∀ t : Fin cfg0.N, condFirst (grid0.coords t) ↔ t.val % 2 = 0 :=
  (by decide +kernel : ∀ t : Fin grid0.N, condFirst (grid0.coords t) ↔ t.val % 2 = 0)

/-- The body adds the bias where the second grid coordinate is 1. -/
abbrev condLast (i : grid0.Coords) : Prop := (Scalar.cmpi .ne (Scalar.extui (Scalar.cmpi .eq (BitVec.ofNat 32 (i 1).val) 1#32)) 0#32) = 1#1
/-- That is at the odd points. -/
theorem hcondLast : ∀ t : Fin cfg0.N, condLast (grid0.coords t) ↔ t.val % 2 = 1 :=
  (by decide +kernel : ∀ t : Fin grid0.N, condLast (grid0.coords t) ↔ t.val % 2 = 1)

/-! ## The staging memrefs the body is called with -/

/-- One staging buffer of the output window, through which its contents are stated. -/
abbrev VO : View sig .tc .vmem S2048x256 .f32 := (Memref.whole cc0_stg5_0 : Memref sig .tc .vmem S2048x256 .f32).view

abbrev ms0 (t : Fin cfg0.N) : Memref sig .tc .vmem S2048x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x256 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x256 .f32 := win0_5.stage (cfg0.slots t 5)
abbrev hs5 (t : Fin cfg0.N) : (ms5 t).IsWhole := hstage0_5 ((cfg0.slots t 5).cast nbuf0_5)

end Cert.KernelIdeal.Around

end
-- ==== Proof.RunAI.lean ====
/-
  The body at an even grid point (the second coordinate is 0), run on whole staging memrefs.

  At such a point the body stores zero over the whole output block, reads the block back, adds the product of the
  activations' column half with the dequantised weight tile, stores the sum over the whole block, and skips the bias.
  The run is found by symbolic execution of the body's memory operations; what it leaves in the output buffer is the
  list of the two stores (the later first), which is the witness of the subtype.
-/
import proofs.«403328_j39084202394119_3_alg».proof.Proof.AroundI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref at an even point, with the proof that the body,
    given the five input memrefs whole at their contents and the output's whole at anything, runs to any
    continuation that takes the inputs back unchanged and the output's buffer with those pieces written. -/
noncomputable def kernelRunA (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : condFirst i) (hc1 : ¬condLast i) (x0 : Vec F S2048x4096 .bf16) (x1 : Vec F S256x256 .i32) (x2 : Vec F S16x256 .i32) (x3 : Vec F S16x256 .f32) (x4 : Vec F S1x256 .f32) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__qlinear_kernel i arg2 harg2 arg3 harg3 arg4 harg4 arg5 harg5 arg6 harg6 arg7 harg7) K } := by
  refine ⟨?_, fun E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0
    obtain rfl := harg3.eq_unread hf1
    obtain rfl := harg4.eq_unread hf2
    obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Around

end
-- ==== Proof.RunBI.lean ====
/-
  The body at an odd grid point (the second coordinate is 1), run on whole staging memrefs.

  At such a point the body leaves the accumulator as the point before left it, reads it, adds the product of the
  activations' other column half with the dequantised weight tile, stores the sum over the whole block, reads that
  back, adds the bias row to every row, and stores the result over the whole block. The run is found by symbolic
  execution; what it leaves in the output buffer is the list of the two stores (the later first).
-/
import proofs.«403328_j39084202394119_3_alg».proof.Proof.RunAI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the output's staging memref at an odd point, with the proof that the body,
    given the five input memrefs whole at their contents and the output's whole at what the point before left, runs
    to any continuation that takes the inputs back unchanged and the output's buffer with those pieces written. -/
noncomputable def kernelRunB (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : ¬condFirst i) (hc1 : condLast i) (x0 : Vec F S2048x4096 .bf16) (x1 : Vec F S256x256 .i32) (x2 : Vec F S16x256 .i32) (x3 : Vec F S16x256 .f32) (x4 : Vec F S1x256 .f32) (xo : Vec F S2048x256 .f32) :
    { L : List (View.Piece (Elt F) S2048x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L)) -∗ K ⟨⟩))
          ⊢ wp frame (wpE (defs₀ (F := F)) Variants.none c none) E (cc0__qlinear_kernel i arg2 harg2 arg3 harg3 arg4 harg4 arg5 harg5 arg6 harg6 arg7 harg7) K } := by
  refine ⟨?_, fun E K => ?run⟩
  case run =>
    simp only [cc0__qlinear_kernel_eq_skeleton]; unfold cc0__qlinear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.KernelIdeal.Around

end
-- ==== Proof.FrameI.lean ====
/-
  The frame of the program: it runs to the end, faults nowhere, and leaves its argument arrays as launched.

  What the output window's staging buffer holds after the body is defined point by point: at an even point the two
  stores of that case read back (over anything: they cover the block); at an odd point the two stores of that case,
  which start from what the even point before left — the pipeline writes the output block back only after odd points,
  so between an even point and the next odd one the buffer is kept. With the inputs' buffers at their blocks this is
  the proof data the library's launch theorem asks for; the body obligation is the two case runs, selected by the
  parity of the point; the run continues with the one host operation after the region.
-/
import proofs.«403328_j39084202394119_3_alg».proof.Proof.RunBI

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output's buffer -/

/-- The two stores of an even point tile the output block, so they cover it. -/
theorem coverA (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : condFirst i) (hc1 : ¬condLast i) (x0 : Vec F S2048x4096 .bf16) (x1 : Vec F S256x256 .i32) (x2 : Vec F S16x256 .i32) (x3 : Vec F S16x256 .f32) (x4 : Vec F S1x256 .f32) (y : S2048x256.Idx) :
    ∃ pc ∈ (kernelRunA c i arg2 harg2 arg3 harg3 arg4 harg4 arg5 harg5 arg6 harg6 arg7 harg7 hc0 hc1 x0 x1 x2 x3 x4).1, y ∈ pc.1.set :=
  View.cover_of_tiledL (kernelRunA c i arg2 harg2 arg3 harg3 arg4 harg4 arg5 harg5 arg6 harg6 arg7 harg7 hc0 hc1 x0 x1 x2 x3 x4).1 S2048x256.size (by sl_kernel_rfl) y

/-- What an even point leaves in the output's buffer: its stores read back over anything. -/
def outA (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : condFirst i) (hc1 : ¬condLast i) (x0 : Vec F S2048x4096 .bf16) (x1 : Vec F S256x256 .i32) (x2 : Vec F S16x256 .i32) (x3 : Vec F S16x256 .f32) (x4 : Vec F S1x256 .f32) : Vec F S2048x256 .f32 :=
  VO.read (Elt F) (VO.writes (Elt F) VO.junk (kernelRunA c i arg2 harg2 arg3 harg3 arg4 harg4 arg5 harg5 arg6 harg6 arg7 harg7 hc0 hc1 x0 x1 x2 x3 x4).1)

/-- The two stores of an odd point tile the output block, so they cover it. -/
theorem coverB (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : ¬condFirst i) (hc1 : condLast i) (x0 : Vec F S2048x4096 .bf16) (x1 : Vec F S256x256 .i32) (x2 : Vec F S16x256 .i32) (x3 : Vec F S16x256 .f32) (x4 : Vec F S1x256 .f32) (xo : Vec F S2048x256 .f32) (y : S2048x256.Idx) :
    ∃ pc ∈ (kernelRunB c i arg2 harg2 arg3 harg3 arg4 harg4 arg5 harg5 arg6 harg6 arg7 harg7 hc0 hc1 x0 x1 x2 x3 x4 xo).1, y ∈ pc.1.set :=
  View.cover_of_tiledL (kernelRunB c i arg2 harg2 arg3 harg3 arg4 harg4 arg5 harg5 arg6 harg6 arg7 harg7 hc0 hc1 x0 x1 x2 x3 x4 xo).1 S2048x256.size (by sl_kernel_rfl) y

/-- What an odd point leaves in the output's buffer, from what the point before left (`xo`). -/
def outB (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : ¬condFirst i) (hc1 : condLast i) (x0 : Vec F S2048x4096 .bf16) (x1 : Vec F S256x256 .i32) (x2 : Vec F S16x256 .i32) (x3 : Vec F S16x256 .f32) (x4 : Vec F S1x256 .f32) (xo : Vec F S2048x256 .f32) : Vec F S2048x256 .f32 :=
  VO.read (Elt F) (VO.writes (Elt F) VO.junk (kernelRunB c i arg2 harg2 arg3 harg3 arg4 harg4 arg5 harg5 arg6 harg6 arg7 harg7 hc0 hc1 x0 x1 x2 x3 x4 xo).1)

/-! ## What the output's buffer holds after each point -/

/-- A point is even or odd, and the two branch conditions follow its parity. -/
theorem condsEven (t : Fin cfg0.N) (h : t.val % 2 = 0) : condFirst (grid0.coords t) ∧ ¬condLast (grid0.coords t) :=
  ⟨(hcondFirst t).mpr h, fun hl => by have := (hcondLast t).mp hl; omega⟩
theorem condsOdd (t : Fin cfg0.N) (h : ¬t.val % 2 = 0) : ¬condFirst (grid0.coords t) ∧ condLast (grid0.coords t) :=
  ⟨fun hf => h ((hcondFirst t).mp hf), (hcondLast t).mpr (by omega)⟩

/-- THE ACCUMULATION: the output's buffer after the body at position `n` — the even case run at the point's memrefs and
    input blocks, or the odd case run from what position `n - 1` left. -/
def outsAt (c : Dev nD) : (n : ℕ) → n < cfg0.N → Vec F S2048x256 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (condsEven ⟨0, hn⟩ (Nat.zero_mod _)).1 (condsEven ⟨0, hn⟩ (Nat.zero_mod _)).2 (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 2 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (condsEven ⟨n + 1, hn⟩ h0).1 (condsEven ⟨n + 1, hn⟩ h0).2 (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (condsOdd ⟨n + 1, hn⟩ h0).1 (condsOdd ⟨n + 1, hn⟩ h0).2 (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt c n (Nat.lt_of_succ_lt hn))

/-- At an even point: that case's contents. -/
theorem outsAt_even (c : Dev nD) (t : Fin cfg0.N) (h0 : t.val % 2 = 0) :
    outsAt m c t.val t.isLt = outA c (grid0.coords t) (ms0 t) (hs0 t) (ms1 t) (hs1 t) (ms2 t) (hs2 t) (ms3 t) (hs3 t) (ms4 t) (hs4 t) (ms5 t) (hs5 t) (condsEven t h0).1 (condsEven t h0).2 (iblk m c 0 t) (iblk m c 1 t) (iblk m c 2 t) (iblk m c 3 t) (iblk m c 4 t) := by
  obtain ⟨n, hn⟩ := t
  cases n with
  | zero => exact rfl
  | succ n => exact (dif_pos h0).trans rfl

/-- At an odd point: that case's contents, over what the point before left. -/
theorem outsAt_odd (c : Dev nD) (t : Fin cfg0.N) (h0 : ¬t.val % 2 = 0) :
    outsAt m c t.val t.isLt = outB c (grid0.coords t) (ms0 t) (hs0 t) (ms1 t) (hs1 t) (ms2 t) (hs2 t) (ms3 t) (hs3 t) (ms4 t) (hs4 t) (ms5 t) (hs5 t) (condsOdd t h0).1 (condsOdd t h0).2 (iblk m c 0 t) (iblk m c 1 t) (iblk m c 2 t) (iblk m c 3 t) (iblk m c 4 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pipeline on core `c`: the arrays as the region finds them; after the body at point `t` each
    input's buffer at its block and the output's at `outsAt`; the invariant the scoped rest and the random-number register;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt) := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- At an odd point the output's current staging buffer holds what the body left at the point before: the point is not
    the first, and the buffer was not written back between (write-backs follow odd points only). -/
theorem before_5_odd (c : Dev nD) (t : Fin cfg0.N) (h0 : ¬t.val % 2 = 0) (d) :
    (dats m 0 c).before 5 t d = (outsAt m c (t.val - 1) (Nat.lt_of_le_of_lt (Nat.sub_le _ _) t.isLt)) := by
  have hN : t.val < 86 := lt_of_lt_of_eq t.isLt (show cfg0.N = 86 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' memrefs hold their blocks; the parity of the point says which case it is in; at
    an odd point the output's buffer holds what the point before left; so that case's run applies; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 2 = 0
  · rw [outsAt_even m c t h0]
    unfold outA
    iintro ⟨HΦ, Ho, ⟨%d0, H0⟩, ⟨%d1, H1⟩, ⟨%d2, H2⟩, ⟨%d3, H3⟩, ⟨%d4, H4⟩, ⟨%d5, H5⟩⟩
    iapply ((kernelRunA c (grid0.coords t) _ _ _ _ _ _ _ _ _ _ _ _ (condsEven t h0).1 (condsEven t h0).2 (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverA c _ _ _ _ _ _ _ _ _ _ _ _ _ _ _ _ _ _ _ _)
  · rw [outsAt_odd m c t h0]
    simp only [before_5_odd m c t h0]
    unfold outB
    iintro ⟨HΦ, Ho, ⟨%d0, H0⟩, ⟨%d1, H1⟩, ⟨%d2, H2⟩, ⟨%d3, H3⟩, ⟨%d4, H4⟩, ⟨%d5, H5⟩⟩
    iapply ((kernelRunB c (grid0.coords t) _ _ _ _ _ _ _ _ _ _ _ _ (condsOdd t h0).1 (condsOdd t h0).2 (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverB c _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Around

end
-- ==== Proof.Blocks.lean ====
/-
  The windows' blocks read at an index.

  The grid is 43 column tiles by 2 row halves, the row half varying fastest: point `t` is column tile `t / 2` and row
  half `t % 2`. The activations' window is the whole matrix at every point (the body itself loads the column half
  `2048 · (t % 2) …` of it); the packed weights' block is word-rows `256 · (t % 2) …` by columns `256 · (t / 2) …`; the
  zero points' and the scales' block is groups `16 · (t % 2) …` by the same columns; the bias' block is the one row by
  the same columns; the output's block is all 2048 rows by the same columns.
-/
import proofs.«403328_j39084202394119_3_alg».proof.Proof.AroundI
import Idealize.ShloMosaic.Lib.ValueIdx
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ)

/-! ## The arrays the windows stage and their blocks, named at their literal types -/

abbrev xArr (c : Dev nD) : Vec F S2048x4096 .bf16 := V m c main_v1
abbrev qArr (c : Dev nD) : Vec F S512x11008 .i32 := V m c main_arg1
abbrev zArr (c : Dev nD) : Vec F S32x11008 .i32 := V m c main_v44
abbrev sArr (c : Dev nD) : Vec F S32x11008 .f32 := V m c main_arg3
abbrev bArr (c : Dev nD) : Vec F S1x11008 .f32 := V m c main_v2

abbrev xBlk (c : Dev nD) (t : Fin cfg0.N) : Vec F S2048x4096 .bf16 := iblk m c 0 t
abbrev qBlk (c : Dev nD) (t : Fin cfg0.N) : Vec F S256x256 .i32 := iblk m c 1 t
abbrev zBlk (c : Dev nD) (t : Fin cfg0.N) : Vec F S16x256 .i32 := iblk m c 2 t
abbrev sBlk (c : Dev nD) (t : Fin cfg0.N) : Vec F S16x256 .f32 := iblk m c 3 t
abbrev bBlk (c : Dev nD) (t : Fin cfg0.N) : Vec F S1x256 .f32 := iblk m c 4 t

/-- The half of the activations' columns the body loads where the grid coordinates are `i`: columns
    `2048 · i₁ …` of the matrix it is handed. -/
abbrev xHalf (i : grid0.Coords) (x0 : Vec F S2048x4096 .bf16) : Vec F S2048x2048 .bf16 :=
  View.ld x0 (Rect.unit (s := S2048x4096) (k0_off1 i) S2048x2048.size (k0_off1_inb i))

/-- A point's column tile and row half are in range. -/
theorem tile_lt (t : Fin cfg0.N) : t.val / 2 < 43 := by
  have h : t.val < 86 := lt_of_lt_of_eq t.isLt (show cfg0.N = 86 from N_0); omega

/-! ## The index maps, decided over the grid once -/

/-- Every window's block index at point `t`: the activations' is `(0, 0)`; the packed weights', the zero points' and
    the scales' is (row half, column tile); the bias' and the output's is `(0, column tile)`. -/
theorem idx_facts : ∀ t : Fin cfg0.N,
    win0_0.index t (0 : Fin 2) = 0 ∧ win0_0.index t (1 : Fin 2) = 0
    ∧ win0_1.index t (0 : Fin 2) = t.val % 2 ∧ win0_1.index t (1 : Fin 2) = t.val / 2
    ∧ win0_2.index t (0 : Fin 2) = t.val % 2 ∧ win0_2.index t (1 : Fin 2) = t.val / 2
    ∧ win0_3.index t (0 : Fin 2) = t.val % 2 ∧ win0_3.index t (1 : Fin 2) = t.val / 2
    ∧ win0_4.index t (0 : Fin 2) = 0 ∧ win0_4.index t (1 : Fin 2) = t.val / 2
    ∧ win0_5.index t (0 : Fin 2) = 0 ∧ win0_5.index t (1 : Fin 2) = t.val / 2 :=
  (by decide +kernel : ∀ t : Fin grid0.N, _)

/-- The offsets of the body's load of the activations at point `t`: row 0, column `2048 · (t % 2)`. -/
theorem off_facts : ∀ t : Fin cfg0.N,
    k0_off1 (grid0.coords t) (0 : Fin 2) = 0 ∧ k0_off1 (grid0.coords t) (1 : Fin 2) = 2048 * (t.val % 2) :=
  (by decide +kernel : ∀ t : Fin grid0.N, _)

/-- The loaded half at `(r, k)` is the activations at column `2048 · (t % 2) + k`. -/
theorem xHalf_apply (c : Dev nD) (t : Fin cfg0.N) (r : Fin 2048) (k : Fin 2048) :
    xHalf (grid0.coords t) (xBlk m c t) (ix2 r k)
      = xArr m c (ix2 r (⟨2048 * (t.val % 2) + k.val, by omega⟩ : Fin 4096)) := by
  obtain ⟨e0, e1, -⟩ := idx_facts t
  obtain ⟨o0, o1⟩ := off_facts t
  show iblk m c 0 t _ = V m c main_v1 _
  unfold iblk
  rw [View.read_apply]
  show V m c main_v1 _ = V m c main_v1 _
  congr 1
  funext d
  apply Fin.ext
  match d with
  | ⟨0, _⟩ => show win0_0.index t 0 * 2048 + 1 * (k0_off1 (grid0.coords t) 0 + 1 * r.val) = r.val; rw [e0, o0]; omega
  | ⟨1, _⟩ => show win0_0.index t 1 * 4096 + 1 * (k0_off1 (grid0.coords t) 1 + 1 * k.val) = 2048 * (t.val % 2) + k.val; rw [e1, o1]; omega

/-- The packed weights' block. -/
theorem qBlk_apply (c : Dev nD) (t : Fin cfg0.N) (a : Fin 256) (n : Fin 256) :
    qBlk m c t (ix2 a n)
      = qArr m c (ix2 (⟨256 * (t.val % 2) + a.val, by omega⟩ : Fin 512) (⟨256 * (t.val / 2) + n.val, by have := tile_lt t; omega⟩ : Fin 11008)) := by
  obtain ⟨-, -, e0, e1, -⟩ := idx_facts t
  show iblk m c 1 t (ix2 a n) = V m c main_arg1 _
  unfold iblk
  rw [View.read_apply]
  show V m c main_arg1 _ = V m c main_arg1 _
  congr 1
  funext d
  apply Fin.ext
  match d with
  | ⟨0, _⟩ => show win0_1.index t 0 * 256 + 1 * a.val = 256 * (t.val % 2) + a.val; rw [e0]; omega
  | ⟨1, _⟩ => show win0_1.index t 1 * 256 + 1 * n.val = 256 * (t.val / 2) + n.val; rw [e1]; omega

/-- The zero points' block. -/
theorem zBlk_apply (c : Dev nD) (t : Fin cfg0.N) (g : Fin 16) (n : Fin 256) :
    zBlk m c t (ix2 g n)
      = zArr m c (ix2 (⟨16 * (t.val % 2) + g.val, by omega⟩ : Fin 32) (⟨256 * (t.val / 2) + n.val, by have := tile_lt t; omega⟩ : Fin 11008)) := by
  obtain ⟨-, -, -, -, e0, e1, -⟩ := idx_facts t
  show iblk m c 2 t (ix2 g n) = V m c main_v44 _
  unfold iblk
  rw [View.read_apply]
  show V m c main_v44 _ = V m c main_v44 _
  congr 1
  funext d
  apply Fin.ext
  match d with
  | ⟨0, _⟩ => show win0_2.index t 0 * 16 + 1 * g.val = 16 * (t.val % 2) + g.val; rw [e0]; omega
  | ⟨1, _⟩ => show win0_2.index t 1 * 256 + 1 * n.val = 256 * (t.val / 2) + n.val; rw [e1]; omega

/-- The scales' block. -/
theorem sBlk_apply (c : Dev nD) (t : Fin cfg0.N) (g : Fin 16) (n : Fin 256) :
    sBlk m c t (ix2 g n)
      = sArr m c (ix2 (⟨16 * (t.val % 2) + g.val, by omega⟩ : Fin 32) (⟨256 * (t.val / 2) + n.val, by have := tile_lt t; omega⟩ : Fin 11008)) := by
  obtain ⟨-, -, -, -, -, -, e0, e1, -⟩ := idx_facts t
  show iblk m c 3 t (ix2 g n) = V m c main_arg3 _
  unfold iblk
  rw [View.read_apply]
  show V m c main_arg3 _ = V m c main_arg3 _
  congr 1
  funext d
  apply Fin.ext
  match d with
  | ⟨0, _⟩ => show win0_3.index t 0 * 16 + 1 * g.val = 16 * (t.val % 2) + g.val; rw [e0]; omega
  | ⟨1, _⟩ => show win0_3.index t 1 * 256 + 1 * n.val = 256 * (t.val / 2) + n.val; rw [e1]; omega

/-- The bias' block. -/
theorem bBlk_apply (c : Dev nD) (t : Fin cfg0.N) (n : Fin 256) :
    bBlk m c t (ix2 (0 : Fin 1) n)
      = bArr m c (ix2 (0 : Fin 1) (⟨256 * (t.val / 2) + n.val, by have := tile_lt t; omega⟩ : Fin 11008)) := by
  obtain ⟨-, -, -, -, -, -, -, -, e0, e1, -⟩ := idx_facts t
  show iblk m c 4 t (ix2 (0 : Fin 1) n) = V m c main_v2 _
  unfold iblk
  rw [View.read_apply]
  show V m c main_v2 _ = V m c main_v2 _
  congr 1
  funext d
  apply Fin.ext
  match d with
  | ⟨0, _⟩ => show win0_4.index t 0 * 1 + 1 * 0 = 0; rw [e0]
  | ⟨1, _⟩ => show win0_4.index t 1 * 256 + 1 * n.val = 256 * (t.val / 2) + n.val; rw [e1]; omega

/-- The output's block: local index `(r, n)` sits at `(r, 256 · (t / 2) + n)` of the result matrix. -/
theorem oBlk_emb (t : Fin cfg0.N) (r : Fin 2048) (n : Fin 256) :
    (((cfg0.win 5).blk t).view.emb (ix2 r n) : S2048x11008.Idx)
      = ix2 r (⟨256 * (t.val / 2) + n.val, by have := tile_lt t; omega⟩ : Fin 11008) := by
  obtain ⟨-, -, -, -, -, -, -, -, -, -, e0, e1⟩ := idx_facts t
  funext d
  apply Fin.ext
  match d with
  | ⟨0, _⟩ => show win0_5.index t 0 * 2048 + 1 * r.val = r.val; rw [e0]; omega
  | ⟨1, _⟩ => show win0_5.index t 1 * 256 + 1 * n.val = 256 * (t.val / 2) + n.val; rw [e1]; omega

/-- An index of the result matrix is in point `t`'s output block iff its column is in the tile. -/
theorem mem_oBlk (t : Fin cfg0.N) (i : S2048x11008.Idx) :
    i ∈ ((cfg0.win 5).blk t).view.set ↔ 256 * (t.val / 2) ≤ (i 1).val ∧ (i 1).val < 256 * (t.val / 2) + 256 := by
  obtain ⟨-, -, -, -, -, -, -, -, -, -, e0, e1⟩ := idx_facts t
  show i ∈ ((View.whole main_v45).slice (win0_5.rect t)).set ↔ _
  rw [View.set_slice_whole, Rect.mem_set_unit]
  have h0 : (i 0).val < 2048 := (i 0).isLt
  have h1 : (i 1).val < 11008 := (i 1).isLt
  constructor
  · intro h
    have b1 : win0_5.index t (1 : Fin 2) * 256 ≤ (i 1).val ∧ (i 1).val < win0_5.index t (1 : Fin 2) * 256 + 256 := h 1
    omega
  · intro h a
    match a with
    | ⟨0, _⟩ => show win0_5.index t (0 : Fin 2) * 2048 ≤ (i 0).val ∧ (i 0).val < win0_5.index t (0 : Fin 2) * 2048 + 2048; omega
    | ⟨1, _⟩ => show win0_5.index t (1 : Fin 2) * 256 ≤ (i 1).val ∧ (i 1).val < win0_5.index t (1 : Fin 2) * 256 + 256; omega

end Cert.KernelIdeal.Around

end
-- ==== Proof.Pieces.lean ====
/-
  What each case of the body leaves in the output's buffer, as the body's own arithmetic.

  The stores of a case cover the block, so what they leave is the last store's value. At an even point that is the
  accumulation step applied to the cleared accumulator (the read-back of the first store); at an odd point it is the
  bias step applied to the accumulation step of what the point before left (the read-back of the first store). The
  loads of the input buffers read their contents; the load of the activations reads the point's column half.
-/
import proofs.«403328_j39084202394119_3_alg».proof.Proof.FrameI
import proofs.«403328_j39084202394119_3_alg».proof.Proof.Blocks
import Idealize.ShloMosaic.Lib.Pipeline.Value

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

theorem hz2 : (![0, 0] : Fin 2 → Nat) = fun _ => 0 := funext fun a => by fin_cases a <;> rfl

/-- An even point leaves the accumulation step of the cleared accumulator. -/
theorem outA_eq (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : condFirst i) (hc1 : ¬condLast i) (x0 : Vec F S2048x4096 .bf16) (x1 : Vec F S256x256 .i32) (x2 : Vec F S16x256 .i32) (x3 : Vec F S16x256 .f32) (x4 : Vec F S1x256 .f32) :
    outA c i arg2 harg2 arg3 harg3 arg4 harg4 arg5 harg5 arg6 harg6 arg7 harg7 hc0 hc1 x0 x1 x2 x3 x4 = k0_pay1 (k0_pay4 x2) x3 x1 (k0_pay5 x1) (k0_pay6 x1) (k0_pay7 x1) (k0_pay8 x1) (k0_pay9 x1) (k0_pay10 x1) (k0_pay11 x1) (xHalf i x0) (k0_pay3 (F := F)) := by
  unfold outA
  rw [View.read_writes_eq_canon _ _ _ (coverA c i arg2 harg2 arg3 harg3 arg4 harg4 arg5 harg5 arg6 harg6 arg7 harg7 hc0 hc1 x0 x1 x2 x3 x4)]
  unfold kernelRunA
  dsimp only
  sl_unfold_words
  rw [View.canon_cons_unit_zero (S := S2048x256) hz2, View.readCov_unit_zero (S := S2048x256) _ hz2]
  simp only [View.readAt_eq_ld, harg2.read_unread, harg3.read_unread, harg4.read_unread, harg5.read_unread,
    View.ld_unit_zero (S := S16x256) hz2, View.ld_unit_zero (S := S256x256) hz2]
  rfl

/-- An odd point leaves the bias step of the accumulation step of what the point before left. -/
theorem outB_eq (c : Dev nD) (i : grid0.Coords) (arg2 : Memref sig .tc .vmem S2048x4096 .bf16) (harg2 : arg2.IsWhole) (arg3 : Memref sig .tc .vmem S256x256 .i32) (harg3 : arg3.IsWhole) (arg4 : Memref sig .tc .vmem S16x256 .i32) (harg4 : arg4.IsWhole) (arg5 : Memref sig .tc .vmem S16x256 .f32) (harg5 : arg5.IsWhole) (arg6 : Memref sig .tc .vmem S1x256 .f32) (harg6 : arg6.IsWhole) (arg7 : Memref sig .tc .vmem S2048x256 .f32) (harg7 : arg7.IsWhole)
    (hc0 : ¬condFirst i) (hc1 : condLast i) (x0 : Vec F S2048x4096 .bf16) (x1 : Vec F S256x256 .i32) (x2 : Vec F S16x256 .i32) (x3 : Vec F S16x256 .f32) (x4 : Vec F S1x256 .f32) (xo : Vec F S2048x256 .f32) :
    outB c i arg2 harg2 arg3 harg3 arg4 harg4 arg5 harg5 arg6 harg6 arg7 harg7 hc0 hc1 x0 x1 x2 x3 x4 xo = k0_pay2 (k0_pay1 (k0_pay4 x2) x3 x1 (k0_pay5 x1) (k0_pay6 x1) (k0_pay7 x1) (k0_pay8 x1) (k0_pay9 x1) (k0_pay10 x1) (k0_pay11 x1) (xHalf i x0) xo) x4 := by
  unfold outB
  rw [View.read_writes_eq_canon _ _ _ (coverB c i arg2 harg2 arg3 harg3 arg4 harg4 arg5 harg5 arg6 harg6 arg7 harg7 hc0 hc1 x0 x1 x2 x3 x4 xo)]
  unfold kernelRunB
  dsimp only
  sl_unfold_words
  rw [View.canon_cons_unit_zero (S := S2048x256) hz2, View.readCov_unit_zero (S := S2048x256) _ hz2]
  simp only [View.readAt_eq_ld, harg2.read_unread, harg3.read_unread, harg4.read_unread, harg5.read_unread,
    harg6.read_unread, harg7.read_unread,
    View.ld_unit_zero (S := S16x256) hz2, View.ld_unit_zero (S := S256x256) hz2, View.ld_unit_zero (S := S2048x256) hz2,
    View.ld_unit_zero (S := S1x256) hz2]
  rfl

end Cert.KernelIdeal.Around

end
-- ==== Proof.Spec.lean ====
/-
  The quantised linear layer as one function of its five argument arrays, over the extended reals.

  A packed word holds eight four-bit fields; field `p` of a word `w` is `(w >>ₛ 4p) &&& 15`, a word in [0, 15].
  The weight matrix packs eight consecutive ROWS into one word (row `R` is field `R % 8` of word-row `R / 8`), the
  zero points pack eight consecutive COLUMNS into one word (column `n` is field `n % 8` of word-column `n / 8`), and
  zero points and scales are shared by groups of 128 consecutive rows. The dequantised weight is
  `(q - z) · scale` and the layer is `x · W + bias`, contracted over all 4096 rows.
-/
import Idealize.ShloMosaic.PureOps.Ideal
import Idealize.ShloMosaic.Lib.ValueIdx

noncomputable section

namespace Cert.QLinear

open Idealize.ShloMosaic Idealize.ShloMosaic.ValueIdx

/-- Field `p` of a packed word: four bits, read as a word in [0, 15]. -/
def nib (w : BitVec 32) (p : Nat) : BitVec 32 := (w.sshiftRight (4 * p)) &&& 15#32

/-- A field is at most 15. -/
theorem nib_toNat_le (w : BitVec 32) (p : Nat) : (nib w p).toNat ≤ 15 := by
  unfold nib
  rw [BitVec.toNat_and]
  exact Nat.and_le_right

/-- A field is non-negative as a signed word: its signed and unsigned readings agree. -/
theorem nib_toInt (w : BitVec 32) (p : Nat) : (nib w p).toInt = ((nib w p).toNat : ℤ) := by
  have h := nib_toNat_le w p
  rw [BitVec.toInt_eq_toNat_cond]
  rw [if_pos (by omega)]

/-- The difference of two fields does not wrap: as signed words, the difference of the words is the difference of
    the integers (both lie in [0, 15], the difference in [-15, 15]). -/
theorem toInt_sub_nib (a b : BitVec 32) (pa pb : Nat) :
    (nib a pa - nib b pb).toInt = (nib a pa).toInt - (nib b pb).toInt := by
  have ha := nib_toNat_le a pa
  have hb := nib_toNat_le b pb
  rw [nib_toInt, nib_toInt, BitVec.toInt_eq_toNat_cond, BitVec.toNat_sub]
  split <;> omega

/-- The weight's field at row `R`, column `n`. -/
def qAt (qw : (⟨2, ![512, 11008]⟩ : Shape).Idx → BitVec 32) (R : Fin 4096) (n : Fin 11008) : BitVec 32 :=
  nib (qw (ix2 (⟨R.val / 8, by omega⟩ : Fin 512) n)) (R.val % 8)

/-- The zero point's field for group `g`, column `n`. -/
def zAt (qz : (⟨2, ![32, 1376]⟩ : Shape).Idx → BitVec 32) (g : Fin 32) (n : Fin 11008) : BitVec 32 :=
  nib (qz (ix2 g (⟨n.val / 8, by omega⟩ : Fin 1376))) (n.val % 8)

/-- The group of row `R`. -/
def grp (R : Fin 4096) : Fin 32 := ⟨R.val / 128, by omega⟩

/-- The dequantised weight from an UNPACKED table of zero points `z` (one word per group and column):
    `(q - z) · scale`, the two integers cast to reals before they are subtracted. -/
def wOf (qw : (⟨2, ![512, 11008]⟩ : Shape).Idx → BitVec 32) (z : (⟨2, ![32, 11008]⟩ : Shape).Idx → BitVec 32)
    (sc : (⟨2, ![32, 11008]⟩ : Shape).Idx → EReal) (R : Fin 4096) (n : Fin 11008) : EReal :=
  ((((qAt qw R n).toInt : ℝ) : EReal) - (((z (ix2 (grp R) n)).toInt : ℝ) : EReal)) * sc (ix2 (grp R) n)

/-- The zero points unpacked: one word per group and column. -/
def zTab (qz : (⟨2, ![32, 1376]⟩ : Shape).Idx → BitVec 32) : (⟨2, ![32, 11008]⟩ : Shape).Idx → BitVec 32 :=
  fun j => zAt qz (j 0) (j 1)

/-- THE LAYER: `out[b, s, n] = Σ_R x[b, s, R] · W[R, n] + bias[n]`. -/
def G (x : (⟨3, ![4, 512, 4096]⟩ : Shape).Idx → EReal) (qw : (⟨2, ![512, 11008]⟩ : Shape).Idx → BitVec 32)
    (qz : (⟨2, ![32, 1376]⟩ : Shape).Idx → BitVec 32) (sc : (⟨2, ![32, 11008]⟩ : Shape).Idx → EReal)
    (bias : (⟨1, ![11008]⟩ : Shape).Idx → EReal) : (⟨3, ![4, 512, 11008]⟩ : Shape).Idx → EReal :=
  fun i => (∑ R : Fin 4096, x (ix3 (i 0) (i 1) R) * wOf qw (zTab qz) sc R (i 2)) + bias (ix1 (i 2))

/-- The lower and upper halves of the rows: `R = r` and `R = 2048 + r`. -/
def rowLo (r : Fin 2048) : Fin 4096 := ⟨r.val, by omega⟩
def rowHi (r : Fin 2048) : Fin 4096 := ⟨2048 + r.val, by omega⟩

/-- THE LAYER AS THE KERNEL ACCUMULATES IT, over the flattened rows `m = 512 b + s` and from the tables the kernel's
    windows stage (`x2` the activations as a matrix, `z` the unpacked zero points, `b2` the bias as a row):
    zero, plus the lower half's products, plus the upper half's, plus the bias. -/
def K2 (x2 : (⟨2, ![2048, 4096]⟩ : Shape).Idx → EReal) (qw : (⟨2, ![512, 11008]⟩ : Shape).Idx → BitVec 32)
    (z : (⟨2, ![32, 11008]⟩ : Shape).Idx → BitVec 32) (sc : (⟨2, ![32, 11008]⟩ : Shape).Idx → EReal)
    (b2 : (⟨2, ![1, 11008]⟩ : Shape).Idx → EReal) : (⟨2, ![2048, 11008]⟩ : Shape).Idx → EReal :=
  fun j => (((0 : EReal) + ∑ r : Fin 2048, x2 (ix2 (j 0) (rowLo r)) * wOf qw z sc (rowLo r) (j 1))
      + ∑ r : Fin 2048, x2 (ix2 (j 0) (rowHi r)) * wOf qw z sc (rowHi r) (j 1)) + b2 (ix2 (0 : Fin 1) (j 1))

/-- The two halves together are all the rows: a sum over 4096 rows is the sum over the lower 2048 plus the sum over
    the upper 2048 (addition on the extended reals is commutative and associative; nothing here needs finiteness). -/
theorem sum_rows_split (f : Fin 4096 → EReal) :
    ∑ R : Fin 4096, f R = (∑ r : Fin 2048, f (rowLo r)) + ∑ r : Fin 2048, f (rowHi r) := by
  have h := Fin.sum_univ_add (M := EReal) (a := 2048) (b := 2048) (fun R => f ⟨R.val, by omega⟩)
  have e1 : (∑ R : Fin 4096, f R) = ∑ R : Fin (2048 + 2048), f ⟨R.val, by omega⟩ := rfl
  rw [e1, h]
  rfl

end Cert.QLinear

end
-- ==== Proof.Payload.lean ====
/-
  The body's arithmetic at an index, over the extended reals.
-/
import proofs.«403328_j39084202394119_3_alg».proof.Proof.Gen.KernelIdeal.Skeleton
import proofs.«403328_j39084202394119_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## Layout and word lemmas the four readings use -/

/-- An arithmetic shift right by a literal multiple of four below the width, masked to four bits, is the packed
    word's field. -/
theorem shr_and_eq_nib (x s : BitVec 32) (p : Nat) (hs : s.toNat = 4 * p) (hp : 4 * p < 32) :
    IntOp.andi (IntOp.shrsi .vector x s) 15#32 = Cert.QLinear.nib x p := by
  unfold IntOp.andi IntOp.shrsi Cert.QLinear.nib
  rw [if_pos (by omega)]
  show x.sshiftRight s.toNat &&& 15#32 = _
  rw [hs]

/-- An `[A, B]` array cast to `[A, 1, B]` reads, at `(i, u, j)`, the operand at `(i, j)`. -/
theorem shapeCast_ab_a1b_apply {α : Type} {A B : ℕ} (x : (⟨2, ![A, B]⟩ : Shape).Idx → α)
    (h : (⟨2, ![A, B]⟩ : Shape).ShapeCasts ⟨3, ![A, 1, B]⟩) (i : Fin A) (u : Fin 1) (j : Fin B) :
    shapeCast ⟨3, ![A, 1, B]⟩ x h (ix3 i u j) = x (ix2 i j) :=
  shapeCast_apply x h _ _ (by
    have hu : u.val = 0 := by omega
    rw [Shape.rowMajor_val_three, Shape.rowMajor_val_two]
    show i.val * B + j.val = (i.val * 1 + u.val) * B + j.val
    rw [hu, Nat.mul_one, Nat.add_zero])

/-- The `[256, 8, 256]` array flattened to `[2048, 256]` reads row `k` at `(k / 8, k % 8)`. -/
theorem flat8_apply {α : Type} (x : S256x8x256.Idx → α) (h : S256x8x256.ShapeCasts S2048x256) (k : Fin 2048) (n : Fin 256) :
    shapeCast S2048x256 x h (ix2 k n)
      = x (ix3 (⟨k.val / 8, by omega⟩ : Fin 256) (⟨k.val % 8, by omega⟩ : Fin 8) n) :=
  shapeCast_apply x h _ _ (by
    rw [Shape.rowMajor_val_three, Shape.rowMajor_val_two]
    show ((k.val / 8) * 8 + k.val % 8) * 256 + n.val = k.val * 256 + n.val
    omega)

/-- The `[16, 128, 256]` array flattened to `[2048, 256]` reads row `k` at `(k / 128, k % 128)`. -/
theorem flat128_apply {α : Type} (x : S16x128x256.Idx → α) (h : S16x128x256.ShapeCasts S2048x256) (k : Fin 2048) (n : Fin 256) :
    shapeCast S2048x256 x h (ix2 k n)
      = x (ix3 (⟨k.val / 128, by omega⟩ : Fin 16) (⟨k.val % 128, by omega⟩ : Fin 128) n) :=
  shapeCast_apply x h _ _ (by
    rw [Shape.rowMajor_val_three, Shape.rowMajor_val_two]
    show ((k.val / 128) * 128 + k.val % 128) * 256 + n.val = k.val * 256 + n.val
    omega)

/-- A `[16, 1, 256]` array repeated along its middle axis reads, at `(g, q, n)`, the operand at `(g, 0, n)`. -/
theorem rep128_apply {α : Type} (x : S16x1x256.Idx → α) (h : S16x1x256.Broadcasts S16x128x256) (g : Fin 16) (q : Fin 128) (n : Fin 256) :
    broadcastTo S16x128x256 x h (ix3 g q n) = x (ix3 g (0 : Fin 1) n) := by
  refine broadcastTo_apply x h (ix3 g q n) (ix3 g (0 : Fin 1) n) fun ax => ?_
  match ax with
  | ⟨0, _⟩ => rfl
  | ⟨1, _⟩ => rfl
  | ⟨2, _⟩ => rfl

/-- Eight `[256, 1, 256]` pieces laid along the middle axis: at `(a, p, n)` the result reads piece `p` at `(a, 0, n)`. -/
theorem concat8_apply {α : Type} (x0 x1 x2 x3 x4 x5 x6 x7 : S256x1x256.Idx → α)
    (h : Shape.Concatenates (([⟨S256x1x256, x0⟩, ⟨S256x1x256, x1⟩, ⟨S256x1x256, x2⟩, ⟨S256x1x256, x3⟩, ⟨S256x1x256, x4⟩,
      ⟨S256x1x256, x5⟩, ⟨S256x1x256, x6⟩, ⟨S256x1x256, x7⟩] : List ((s : Shape) × (s.Idx → α))).map (·.1)) S256x8x256 1)
    (g : Fin 8 → α) (a : Fin 256) (n : Fin 256)
    (h0 : x0 (ix3 a (0 : Fin 1) n) = g 0) (h1 : x1 (ix3 a (0 : Fin 1) n) = g 1) (h2 : x2 (ix3 a (0 : Fin 1) n) = g 2)
    (h3 : x3 (ix3 a (0 : Fin 1) n) = g 3) (h4 : x4 (ix3 a (0 : Fin 1) n) = g 4) (h5 : x5 (ix3 a (0 : Fin 1) n) = g 5)
    (h6 : x6 (ix3 a (0 : Fin 1) n) = g 6) (h7 : x7 (ix3 a (0 : Fin 1) n) = g 7) (p : Fin 8) :
    concatenate S256x8x256 1 [⟨S256x1x256, x0⟩, ⟨S256x1x256, x1⟩, ⟨S256x1x256, x2⟩, ⟨S256x1x256, x3⟩, ⟨S256x1x256, x4⟩,
      ⟨S256x1x256, x5⟩, ⟨S256x1x256, x6⟩, ⟨S256x1x256, x7⟩] h (ix3 a p n) = g p := by
  have hi : ∀ (q : Fin 8) (b : Fin S256x1x256.rank), b.cast (rfl : S256x1x256.rank = S256x8x256.rank) ≠ (1 : Fin S256x8x256.rank) →
      ((ix3 a (0 : Fin 1) n : S256x1x256.Idx) b).val = ((ix3 a q n : S256x8x256.Idx) (b.cast rfl)).val := fun q b =>
    match b with
    | ⟨0, _⟩ => fun _ => rfl
    | ⟨1, _⟩ => fun hb => absurd rfl hb
    | ⟨2, _⟩ => fun _ => rfl
  match p with
  | ⟨0, _⟩ => exact (concatenate_apply_piece 1 _ h _ 0 (by show (0 : ℕ) < 8; decide) S256x1x256 x0 rfl rfl 0 rfl (ix3 a (0 : Fin 1) n) (hi _) rfl).trans h0
  | ⟨1, _⟩ => exact (concatenate_apply_piece 1 _ h _ 1 (by show (1 : ℕ) < 8; decide) S256x1x256 x1 rfl rfl 1 rfl (ix3 a (0 : Fin 1) n) (hi _) rfl).trans h1
  | ⟨2, _⟩ => exact (concatenate_apply_piece 1 _ h _ 2 (by show (2 : ℕ) < 8; decide) S256x1x256 x2 rfl rfl 2 rfl (ix3 a (0 : Fin 1) n) (hi _) rfl).trans h2
  | ⟨3, _⟩ => exact (concatenate_apply_piece 1 _ h _ 3 (by show (3 : ℕ) < 8; decide) S256x1x256 x3 rfl rfl 3 rfl (ix3 a (0 : Fin 1) n) (hi _) rfl).trans h3
  | ⟨4, _⟩ => exact (concatenate_apply_piece 1 _ h _ 4 (by show (4 : ℕ) < 8; decide) S256x1x256 x4 rfl rfl 4 rfl (ix3 a (0 : Fin 1) n) (hi _) rfl).trans h4
  | ⟨5, _⟩ => exact (concatenate_apply_piece 1 _ h _ 5 (by show (5 : ℕ) < 8; decide) S256x1x256 x5 rfl rfl 5 rfl (ix3 a (0 : Fin 1) n) (hi _) rfl).trans h5
  | ⟨6, _⟩ => exact (concatenate_apply_piece 1 _ h _ 6 (by show (6 : ℕ) < 8; decide) S256x1x256 x6 rfl rfl 6 rfl (ix3 a (0 : Fin 1) n) (hi _) rfl).trans h6
  | ⟨7, _⟩ => exact (concatenate_apply_piece 1 _ h _ 7 (by show (7 : ℕ) < 8; decide) S256x1x256 x7 rfl rfl 7 rfl (ix3 a (0 : Fin 1) n) (hi _) rfl).trans h7

theorem lhs_mm_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem lhs_mm_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem rhs_mm_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem rhs_mm_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- The matrix product into a zero accumulator, read at `(r, n)`: the sum over the 2048 contracted positions of the
    products of the left operand's row `r` and the right operand's column `n`. -/
theorem mm_apply (lhs : FVec Ideal S2048x2048 .bf16) (rhs : FVec Ideal S2048x256 .bf16) (r : Fin 2048) (n : Fin 256) :
    matmul dot_S2048x2048_S2048x256_S2048x256_1_0_0_1_n_n none lhs rhs (constant (F := Ideal) S2048x256 .f32 0x00000000#32) (ix2 r n)
      = ∑ k : Fin 2048, lhs (ix2 r k) * rhs (ix2 k n) := by
  simp only [matmul]
  rw [Ideal.matmul_constant_zero_apply, ← Equiv.sum_comp (ValueIdx.contrEquiv1 dot_S2048x2048_S2048x256_S2048x256_1_0_0_1_n_n 2048 rfl rfl).symm]
  refine Finset.sum_congr rfl fun k _ => ?_
  have hk := ValueIdx.contrEquiv1_symm_val dot_S2048x2048_S2048x256_S2048x256_1_0_0_1_n_n 2048 rfl rfl k
  have el : dot_S2048x2048_S2048x256_S2048x256_1_0_0_1_n_n.lhsIdx (ix2 r n) ((ValueIdx.contrEquiv1 dot_S2048x2048_S2048x256_S2048x256_1_0_0_1_n_n 2048 rfl rfl).symm k) = ix2 r k := funext fun a => Fin.ext (by
    match a with
    | ⟨0, _⟩ => exact lhs_mm_0 _ _
    | ⟨1, _⟩ => exact (lhs_mm_1 _ _).trans hk)
  have er : dot_S2048x2048_S2048x256_S2048x256_1_0_0_1_n_n.rhsIdx (ix2 r n) ((ValueIdx.contrEquiv1 dot_S2048x2048_S2048x256_S2048x256_1_0_0_1_n_n 2048 rfl rfl).symm k) = ix2 k n := funext fun a => Fin.ext (by
    match a with
    | ⟨0, _⟩ => exact (rhs_mm_0 _ _).trans hk
    | ⟨1, _⟩ => exact rhs_mm_1 _ _)
  rw [el, er]

/-- One shifted-and-masked copy of the tile, read at an index: the field the shift amount names. -/
theorem copy_apply (v6 : Vec Ideal S256x256 .i32) (s : BitVec 32) (p : Nat) (hs : s.toNat = 4 * p) (hp : 4 * p < 32)
    (i : S256x256.Idx) :
    andi (shrsi v6 (broadcast S256x256 s)) (broadcast S256x256 15#32) i = Cert.QLinear.nib (v6 i) p :=
  shr_and_eq_nib (v6 i) s p hs hp

theorem pay5_apply (v6 : Vec Ideal S256x256 .i32) (i : S256x256.Idx) :
    k0_pay5 (F := Ideal) v6 i = Cert.QLinear.nib (v6 i) 0 := copy_apply v6 0#32 0 rfl (by decide) i
theorem pay6_apply (v6 : Vec Ideal S256x256 .i32) (i : S256x256.Idx) :
    k0_pay6 (F := Ideal) v6 i = Cert.QLinear.nib (v6 i) 1 := copy_apply v6 4#32 1 rfl (by decide) i
theorem pay7_apply (v6 : Vec Ideal S256x256 .i32) (i : S256x256.Idx) :
    k0_pay7 (F := Ideal) v6 i = Cert.QLinear.nib (v6 i) 2 := copy_apply v6 8#32 2 rfl (by decide) i
theorem pay8_apply (v6 : Vec Ideal S256x256 .i32) (i : S256x256.Idx) :
    k0_pay8 (F := Ideal) v6 i = Cert.QLinear.nib (v6 i) 3 := copy_apply v6 12#32 3 rfl (by decide) i
theorem pay9_apply (v6 : Vec Ideal S256x256 .i32) (i : S256x256.Idx) :
    k0_pay9 (F := Ideal) v6 i = Cert.QLinear.nib (v6 i) 4 := copy_apply v6 16#32 4 rfl (by decide) i
theorem pay10_apply (v6 : Vec Ideal S256x256 .i32) (i : S256x256.Idx) :
    k0_pay10 (F := Ideal) v6 i = Cert.QLinear.nib (v6 i) 5 := copy_apply v6 20#32 5 rfl (by decide) i
theorem pay11_apply (v6 : Vec Ideal S256x256 .i32) (i : S256x256.Idx) :
    k0_pay11 (F := Ideal) v6 i = Cert.QLinear.nib (v6 i) 6 := copy_apply v6 24#32 6 rfl (by decide) i

/-- The eight copies interleaved along a new middle axis and flattened: row `k`, column `n` of the flattened tile is
    field `k % 8` of the packed word at word-row `k / 8`, column `n`. -/
theorem tile_apply (v6 : Vec Ideal S256x256 .i32) (h1 : S256x256.ShapeCasts S256x1x256)
    (hc : Shape.Concatenates [S256x1x256, S256x1x256, S256x1x256, S256x1x256, S256x1x256, S256x1x256, S256x1x256, S256x1x256] S256x8x256 1)
    (hf : S256x8x256.ShapeCasts S2048x256) (k : Fin 2048) (n : Fin 256) :
    shapeCast S2048x256 (concatenate S256x8x256 1
        [⟨S256x1x256, shapeCast S256x1x256 (k0_pay5 (F := Ideal) v6) h1⟩, ⟨S256x1x256, shapeCast S256x1x256 (k0_pay6 (F := Ideal) v6) h1⟩,
         ⟨S256x1x256, shapeCast S256x1x256 (k0_pay7 (F := Ideal) v6) h1⟩, ⟨S256x1x256, shapeCast S256x1x256 (k0_pay8 (F := Ideal) v6) h1⟩,
         ⟨S256x1x256, shapeCast S256x1x256 (k0_pay9 (F := Ideal) v6) h1⟩, ⟨S256x1x256, shapeCast S256x1x256 (k0_pay10 (F := Ideal) v6) h1⟩,
         ⟨S256x1x256, shapeCast S256x1x256 (k0_pay11 (F := Ideal) v6) h1⟩,
         ⟨S256x1x256, shapeCast S256x1x256 (andi (shrsi v6 (broadcast S256x256 28#32)) (broadcast S256x256 15#32)) h1⟩] hc) hf (ix2 k n)
      = Cert.QLinear.nib (v6 (ix2 (⟨k.val / 8, by omega⟩ : Fin 256) n)) (k.val % 8) := by
  refine (flat8_apply _ hf k n).trans ?_
  exact concat8_apply _ _ _ _ _ _ _ _ hc
    (fun p => Cert.QLinear.nib (v6 (ix2 (⟨k.val / 8, by omega⟩ : Fin 256) n)) p.val) ⟨k.val / 8, by omega⟩ n
    ((shapeCast_ab_a1b_apply _ h1 _ _ _).trans (pay5_apply v6 _))
    ((shapeCast_ab_a1b_apply _ h1 _ _ _).trans (pay6_apply v6 _))
    ((shapeCast_ab_a1b_apply _ h1 _ _ _).trans (pay7_apply v6 _))
    ((shapeCast_ab_a1b_apply _ h1 _ _ _).trans (pay8_apply v6 _))
    ((shapeCast_ab_a1b_apply _ h1 _ _ _).trans (pay9_apply v6 _))
    ((shapeCast_ab_a1b_apply _ h1 _ _ _).trans (pay10_apply v6 _))
    ((shapeCast_ab_a1b_apply _ h1 _ _ _).trans (pay11_apply v6 _))
    ((shapeCast_ab_a1b_apply _ h1 _ _ _).trans (copy_apply v6 28#32 7 rfl (by decide) _))
    ⟨k.val % 8, by omega⟩

/-- A per-group table repeated 128 times along a new middle axis and flattened: row `k` reads group `k / 128`. -/
theorem group_apply {α : Type} (x : S16x256.Idx → α) (h1 : S16x256.ShapeCasts S16x1x256) (h2 : S16x1x256.ShapeCasts S16x1x256)
    (h3 : S16x1x256.Broadcasts S16x128x256) (h4 : S16x128x256.ShapeCasts S2048x256) (k : Fin 2048) (n : Fin 256) :
    shapeCast S2048x256 (broadcastTo S16x128x256 (shapeCast S16x1x256 (shapeCast S16x1x256 x h1) h2) h3) h4 (ix2 k n)
      = x (ix2 (⟨k.val / 128, by omega⟩ : Fin 16) n) := by
  rw [flat128_apply, rep128_apply, shapeCast_self, shapeCast_ab_a1b_apply]

/-- The dequantising arithmetic at an index: the changes of float format are the identity, the integer is cast to a
    real, and the rest is the extended reals' subtraction and multiplication. -/
theorem deq_apply (T : IVec S2048x256 32) (Z : FVec Ideal S2048x256 .bf16) (Sc : FVec Ideal S2048x256 .f32)
    (h1 : FTy.bits .bf16 < FTy.bits .f32) (i : S2048x256.Idx) :
    (truncf .bf16 (mulf (extf .f32 (subf (sitofp .bf16 T) Z) h1) Sc) h1 : FVec Ideal S2048x256 .bf16) i
      = ((((T i).toInt : ℝ) : EReal) - Z i) * Sc i := rfl

/-- The value the body clears the accumulator with is zero everywhere. -/
theorem pay3_apply (j : S2048x256.Idx) : k0_pay3 (F := Ideal) j = (0 : EReal) := by
  unfold k0_pay3
  show Ideal.ofBits .f32 0x00000000#32 = 0
  exact Ideal.ofBits_zero_f32

/-- The zero points' block is used as loaded (a cast between equal shapes). -/
theorem pay4_eq (v3 : Vec Ideal S16x256 .i32) : k0_pay4 (F := Ideal) v3 = v3 := by
  unfold k0_pay4
  exact shapeCast_self _ _

/-- The bias step: every row of the accumulator gets the bias row added. -/
theorem pay2_apply (v76 : Vec Ideal S2048x256 .f32) (v78 : Vec Ideal S1x256 .f32) (r : Fin 2048) (n : Fin 256) :
    k0_pay2 (F := Ideal) v76 v78 (ix2 r n) = v76 (ix2 r n) + v78 (ix2 (0 : Fin 1) n) := by
  unfold k0_pay2
  show shapeCast S2048x256 v76 _ (ix2 r n) + broadcastTo S2048x256 (shapeCast S1x256 v78 _) _ (ix2 r n) = _
  rw [shapeCast_self, shapeCast_self, broadcastTo_1b_ab_apply]

/-- The accumulation step: the accumulator plus, over the tile's 2048 rows `k`, the activation times the dequantised
    weight — field `k % 8` of the packed word in word-row `k / 8`, minus the zero point of group `k / 128`, both cast
    to reals, times that group's scale. (The eight shifted-and-masked copies of the tile are interleaved along a new
    middle axis and flattened, so row `k` of the flattened tile is copy `k % 8` at word-row `k / 8`; the group tables
    are repeated 128 times along a new middle axis and flattened, so row `k` reads group `k / 128`; changes of float
    format are the identity; the matrix product into a zero accumulator is the sum of products.) -/
theorem pay1_apply (v4 : IVec S16x256 32) (v5 : Vec Ideal S16x256 .f32) (v6 : Vec Ideal S256x256 .i32)
    (v66 : Vec Ideal S2048x2048 .bf16) (v68 : Vec Ideal S2048x256 .f32) (r : Fin 2048) (n : Fin 256) :
    k0_pay1 (F := Ideal) v4 v5 v6 (k0_pay5 v6) (k0_pay6 v6) (k0_pay7 v6) (k0_pay8 v6) (k0_pay9 v6) (k0_pay10 v6) (k0_pay11 v6) v66 v68 (ix2 r n)
      = v68 (ix2 r n) + ∑ k : Fin 2048, v66 (ix2 r k) *
          (((((Cert.QLinear.nib (v6 (ix2 (⟨k.val / 8, by omega⟩ : Fin 256) n)) (k.val % 8)).toInt : ℝ) : EReal)
              - (((v4 (ix2 (⟨k.val / 128, by omega⟩ : Fin 16) n)).toInt : ℝ) : EReal))
            * v5 (ix2 (⟨k.val / 128, by omega⟩ : Fin 16) n)) := by
  refine (addf_apply _ _ _).trans ?_
  refine congrArg₂ (· + ·) (congrFun (shapeCast_self v68 _) _) ?_
  refine (mm_apply _ _ r n).trans ?_
  refine Finset.sum_congr rfl fun k _ => ?_
  refine congrArg₂ (· * ·) (congrFun (shapeCast_self v66 _) _) ?_
  refine (deq_apply _ _ _ _ _).trans ?_
  refine congrArg₂ (· * ·) (congrArg₂ (· - ·)
    (congrArg (fun b : BitVec 32 => ((b.toInt : ℝ) : EReal)) (tile_apply v6 _ _ _ k n)) ?_) (group_apply v5 _ _ _ _ k n)
  exact group_apply (sitofp (F := Ideal) .bf16 v4) _ _ _ _ k n

end Cert.KernelIdeal.PayValue

end
-- ==== Proof.Running.lean ====
/-
  What the output's buffer holds after each grid point, over the extended reals, in terms of the arrays the windows
  stage.

  At an even point (row half 0 of column tile `t / 2`) it is zero plus the lower 2048 rows' products; at the odd point
  after it (row half 1 of the same tile) it is that, plus the upper 2048 rows' products, plus the bias: the tile's
  block of the layer as the kernel accumulates it. Row `k` of a tile at row half `h` is row `2048 h + k` of the weight
  matrix: word-row `256 h + k / 8`, field `k % 8`, group `16 h + k / 128`.
-/
import proofs.«403328_j39084202394119_3_alg».proof.Proof.Pieces
import proofs.«403328_j39084202394119_3_alg».proof.Proof.Payload
import proofs.«403328_j39084202394119_3_alg».proof.Proof.Spec

set_option maxRecDepth 16384

noncomputable section

namespace Cert.KernelIdeal.Around

open Cert.KernelIdeal Cert.KernelIdeal.Gen Cert.QLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Column `n` of point `t`'s tile, in the result matrix. -/
abbrev col (t : Fin cfg0.N) (n : Fin 256) : Fin 11008 := ⟨256 * (t.val / 2) + n.val, by have := tile_lt t; omega⟩

/-- The products of the lower, and of the upper, 2048 rows at `(r, nn)`. -/
def partLo (c : Dev nD) (r : Fin 2048) (nn : Fin 11008) : EReal :=
  ∑ k : Fin 2048, xArr m c (ix2 r (rowLo k)) * wOf (qArr m c) (zArr m c) (sArr m c) (rowLo k) nn
def partHi (c : Dev nD) (r : Fin 2048) (nn : Fin 11008) : EReal :=
  ∑ k : Fin 2048, xArr m c (ix2 r (rowHi k)) * wOf (qArr m c) (zArr m c) (sArr m c) (rowHi k) nn

/-- One term of the accumulation step at point `t`, row `k` of the tile: the activation at column `2048 (t % 2) + k`
    times the dequantised weight of that row. -/
theorem term_eq (c : Dev nD) (t : Fin cfg0.N) (r : Fin 2048) (n : Fin 256) (k : Fin 2048) (R : Fin 4096)
    (hR : R.val = 2048 * (t.val % 2) + k.val) :
    xHalf (grid0.coords t) (xBlk m c t) (ix2 r k) *
        (((((nib (qBlk m c t (ix2 (⟨k.val / 8, by omega⟩ : Fin 256) n)) (k.val % 8)).toInt : ℝ) : EReal)
            - (((zBlk m c t (ix2 (⟨k.val / 128, by omega⟩ : Fin 16) n)).toInt : ℝ) : EReal))
          * sBlk m c t (ix2 (⟨k.val / 128, by omega⟩ : Fin 16) n))
      = xArr m c (ix2 r R) * wOf (qArr m c) (zArr m c) (sArr m c) R (col t n) := by
  rw [xHalf_apply m c t r k, qBlk_apply m c t _ n, zBlk_apply m c t _ n, sBlk_apply m c t _ n]
  unfold wOf qAt grp
  have hk : k.val < 2048 := k.isLt
  have e0 : (⟨2048 * (t.val % 2) + k.val, by omega⟩ : Fin 4096) = R := Fin.ext hR.symm
  have e1 : (⟨256 * (t.val % 2) + k.val / 8, by omega⟩ : Fin 512) = ⟨R.val / 8, by omega⟩ := Fin.ext (by show 256 * (t.val % 2) + k.val / 8 = R.val / 8; omega)
  have e2 : (⟨16 * (t.val % 2) + k.val / 128, by omega⟩ : Fin 32) = ⟨R.val / 128, by omega⟩ := Fin.ext (by show 16 * (t.val % 2) + k.val / 128 = R.val / 128; omega)
  have e3 : k.val % 8 = R.val % 8 := by omega
  rw [e0, e1, e2, e3]

/-- After an even point: zero plus the lower rows' products. -/
theorem even_val (c : Dev nD) (t : Fin cfg0.N) (h0 : t.val % 2 = 0) (r : Fin 2048) (n : Fin 256) :
    outsAt m c t.val t.isLt (ix2 r n) = (0 : EReal) + partLo m c r (col t n) := by
  rw [outsAt_even m c t h0]
  refine (congrFun (outA_eq c (grid0.coords t) (ms0 t) (hs0 t) (ms1 t) (hs1 t) (ms2 t) (hs2 t) (ms3 t) (hs3 t) (ms4 t) (hs4 t) (ms5 t) (hs5 t) (condsEven t h0).1 (condsEven t h0).2 (xBlk m c t) (qBlk m c t) (zBlk m c t) (sBlk m c t) (bBlk m c t)) (ix2 r n)).trans ?_
  refine (PayValue.pay1_apply (k0_pay4 (zBlk m c t)) (sBlk m c t) (qBlk m c t) (xHalf (grid0.coords t) (xBlk m c t)) (k0_pay3 (F := Ideal)) r n).trans ?_
  rw [PayValue.pay3_apply, PayValue.pay4_eq]
  refine congrArg (fun z => (0 : EReal) + z) ?_
  unfold partLo
  refine Finset.sum_congr rfl fun k _ => ?_
  exact term_eq m c t r n k (rowLo k) (by show k.val = 2048 * (t.val % 2) + k.val; omega)

/-- After an odd point: the tile's block of the layer as the kernel accumulates it. -/
theorem odd_val (c : Dev nD) (t : Fin cfg0.N) (h0 : ¬t.val % 2 = 0) (r : Fin 2048) (n : Fin 256) :
    outsAt m c t.val t.isLt (ix2 r n)
      = K2 (xArr m c) (qArr m c) (zArr m c) (sArr m c) (bArr m c) (ix2 r (col t n)) := by
  have hN : t.val < 86 := lt_of_lt_of_eq t.isLt (show cfg0.N = 86 from N_0)
  rw [outsAt_odd m c t h0]
  refine (congrFun (outB_eq c (grid0.coords t) (ms0 t) (hs0 t) (ms1 t) (hs1 t) (ms2 t) (hs2 t) (ms3 t) (hs3 t) (ms4 t) (hs4 t) (ms5 t) (hs5 t) (condsOdd t h0).1 (condsOdd t h0).2 (xBlk m c t) (qBlk m c t) (zBlk m c t) (sBlk m c t) (bBlk m c t) _) (ix2 r n)).trans ?_
  rw [PayValue.pay2_apply]
  refine (congrArg (· + bBlk m c t (ix2 (0 : Fin 1) n)) (PayValue.pay1_apply (k0_pay4 (zBlk m c t)) (sBlk m c t) (qBlk m c t) (xHalf (grid0.coords t) (xBlk m c t)) _ r n)).trans ?_
  rw [PayValue.pay4_eq, bBlk_apply m c t n]
  have hprev := even_val m c ⟨t.val - 1, Nat.lt_of_le_of_lt (Nat.sub_le _ _) t.isLt⟩ (by show (t.val - 1) % 2 = 0; omega) r n
  have hcol : col ⟨t.val - 1, Nat.lt_of_le_of_lt (Nat.sub_le _ _) t.isLt⟩ n = col t n := Fin.ext (by show 256 * ((t.val - 1) / 2) + n.val = 256 * (t.val / 2) + n.val; omega)
  rw [hcol] at hprev
  rw [hprev]
  have hK : K2 (xArr m c) (qArr m c) (zArr m c) (sArr m c) (bArr m c) (ix2 r (col t n))
      = (((0 : EReal) + partLo m c r (col t n)) + partHi m c r (col t n)) + bArr m c (ix2 (0 : Fin 1) (col t n)) := rfl
  rw [hK]
  refine congrArg (fun z => (((0 : EReal) + partLo m c r (col t n)) + z) + bArr m c (ix2 (0 : Fin 1) (col t n))) ?_
  unfold partHi
  refine Finset.sum_congr rfl fun k _ => ?_
  exact term_eq m c t r n k (rowHi k) (by show 2048 + k.val = 2048 * (t.val % 2) + k.val; omega)

end Cert.KernelIdeal.Around

end
-- ==== Proof.HostSide.lean ====
/-
  The host operations around the region, read at an index: what the region's windows stage in terms of the program's
  arguments, and what the last operation makes of the region's result.
-/
import proofs.«403328_j39084202394119_3_alg».proof.Proof.AroundI
import proofs.«403328_j39084202394119_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Cert.KernelIdeal.Around
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The zero points' unpacking, piece by piece

  The eight shifts and masks give eight field arrays; each gets a unit last axis; the eight are concatenated along it
  and the result is flattened. The last two operations are read over whatever the first fifty-nine leave, each piece
  is read from the operations that make it, and an index of the flattened table is followed back through the
  flattening, the concatenation and one piece to one field of one packed word. -/

/-- One field of every packed word: the table shifted right by `s`, masked to four bits, a unit axis appended. -/
def fieldArr (qz : (⟨S32x1376, .i32⟩ : BufTy).Contents (Elt Ideal)) (s : BitVec 32) : (⟨S32x1376x1, .i32⟩ : BufTy).Contents (Elt Ideal) :=
  (broadcastInDim S32x1376x1 ![0, 1] bcast_S32x1376_S32x1376x1_0_1 : (⟨S32x1376, .i32⟩ : BufTy).Contents (Elt Ideal) → (⟨S32x1376x1, .i32⟩ : BufTy).Contents (Elt Ideal))
    ((andi : (⟨S32x1376, .i32⟩ : BufTy).Contents (Elt Ideal) → (⟨S32x1376, .i32⟩ : BufTy).Contents (Elt Ideal) → (⟨S32x1376, .i32⟩ : BufTy).Contents (Elt Ideal))
      ((Host.shrsi : (⟨S32x1376, .i32⟩ : BufTy).Contents (Elt Ideal) → (⟨S32x1376, .i32⟩ : BufTy).Contents (Elt Ideal) → (⟨S32x1376, .i32⟩ : BufTy).Contents (Elt Ideal)) qz
        ((broadcastInDim S32x1376 ![] bcast_S_S32x1376 : (⟨S_, .i32⟩ : BufTy).Contents (Elt Ideal) → (⟨S32x1376, .i32⟩ : BufTy).Contents (Elt Ideal)) (constantI S_ 32 s)))
      ((broadcastInDim S32x1376 ![] bcast_S_S32x1376 : (⟨S_, .i32⟩ : BufTy).Contents (Elt Ideal) → (⟨S32x1376, .i32⟩ : BufTy).Contents (Elt Ideal)) (constantI S_ 32 15#32)))

/-- A signed shift by `4p` (below the width, so the shift is the plain one) and the mask `15` is field `p`. -/
theorem shr_and_eq_nib (w : BitVec 32) (p : Nat) (hp : p < 8) :
    IntOp.andi (IntOp.shrsi .host w (BitVec.ofNat 32 (4 * p))) 15#32 = Cert.QLinear.nib w p := by
  have ht : (BitVec.ofNat 32 (4 * p)).toNat = 4 * p := by
    rw [BitVec.toNat_ofNat]; exact Nat.mod_eq_of_lt (by omega)
  unfold IntOp.andi IntOp.shrsi Cert.QLinear.nib
  rw [if_pos (by rw [ht]; omega)]
  unfold BitVec.sshiftRight'
  rw [ht]

/-- The field array at `(g, w, 0)` is field `p` of word `(g, w)`: the unit axis dropped, the two constants read
    at the index, the shift and the mask applied to the word. -/
theorem fieldArr_apply (qz : (⟨S32x1376, .i32⟩ : BufTy).Contents (Elt Ideal)) (p : Nat) (hp : p < 8) (g : Fin 32) (w : Fin 1376) (z : Fin 1) :
    fieldArr qz (BitVec.ofNat 32 (4 * p)) (ix3 g w z) = Cert.QLinear.nib (qz (ix2 g w)) p := by
  unfold fieldArr
  rw [broadcastInDim_apply _ bcast_S32x1376_S32x1376x1_0_1 _ (ix3 g w z) (ix2 g w) (fun a => match a with
    | ⟨0, _⟩ => by show g.val = if (32 : Nat) = 1 then 0 else g.val; rw [if_neg (by decide)]
    | ⟨1, _⟩ => by show w.val = if (1376 : Nat) = 1 then 0 else w.val; rw [if_neg (by decide)])]
  exact shr_and_eq_nib (qz (ix2 g w)) p hp

/-- Eight pieces with a unit last axis, concatenated along it and read at `(g, w, p)`: piece `p` at `(g, w, 0)`. -/
theorem concat8_apply {α : Type} (x : Fin 8 → (S32x1376x1.Idx → α)) (g : Fin 32) (w : Fin 1376) (p : Fin 8) :
    concatenate S32x1376x8 2 [⟨S32x1376x1, x 0⟩, ⟨S32x1376x1, x 1⟩, ⟨S32x1376x1, x 2⟩, ⟨S32x1376x1, x 3⟩,
        ⟨S32x1376x1, x 4⟩, ⟨S32x1376x1, x 5⟩, ⟨S32x1376x1, x 6⟩, ⟨S32x1376x1, x 7⟩] concatenates_S32x1376x1_S32x1376x1_S32x1376x1_S32x1376x1_S32x1376x1_S32x1376x1_S32x1376x1_S32x1376x1_S32x1376x8_d2 (ix3 g w p)
      = x p (ix3 g w (0 : Fin 1)) :=
  concatenate_ofFn_unit_apply (t := S32x1376x8) (s₁ := S32x1376x1) 2 x concatenates_S32x1376x1_S32x1376x1_S32x1376x1_S32x1376x1_S32x1376x1_S32x1376x1_S32x1376x1_S32x1376x1_S32x1376x8_d2 rfl rfl (ix3 g w p) p rfl (ix3 g w (0 : Fin 1))
    (fun b hb => match b, hb with
      | ⟨0, _⟩, _ => rfl
      | ⟨1, _⟩, _ => rfl
      | ⟨2, _⟩, hb => absurd (Fin.ext rfl) hb)

/-- The last two operations before the region, over any earlier contents `W`: the eight pieces concatenated along
    their unit axis, then flattened. -/
theorem last_two (W : Valuation τ sig (Elt Ideal)) :
    (StableHlo.after (List.drop 59 (hostOps0 : List (HloOp τ sig (Elt Ideal)))) W (Proc.devRef .tc main_v44) : S32x11008.Idx → BitVec 32)
      = shapeCast S32x11008 (concatenate S32x1376x8 2 [
          ⟨S32x1376x1, (W (Proc.devRef .tc main_v35) : S32x1376x1.Idx → BitVec 32)⟩, ⟨S32x1376x1, (W (Proc.devRef .tc main_v36) : S32x1376x1.Idx → BitVec 32)⟩,
          ⟨S32x1376x1, (W (Proc.devRef .tc main_v37) : S32x1376x1.Idx → BitVec 32)⟩, ⟨S32x1376x1, (W (Proc.devRef .tc main_v38) : S32x1376x1.Idx → BitVec 32)⟩,
          ⟨S32x1376x1, (W (Proc.devRef .tc main_v39) : S32x1376x1.Idx → BitVec 32)⟩, ⟨S32x1376x1, (W (Proc.devRef .tc main_v40) : S32x1376x1.Idx → BitVec 32)⟩,
          ⟨S32x1376x1, (W (Proc.devRef .tc main_v41) : S32x1376x1.Idx → BitVec 32)⟩, ⟨S32x1376x1, (W (Proc.devRef .tc main_v42) : S32x1376x1.Idx → BitVec 32)⟩]
          concatenates_S32x1376x1_S32x1376x1_S32x1376x1_S32x1376x1_S32x1376x1_S32x1376x1_S32x1376x1_S32x1376x1_S32x1376x8_d2) shapeCasts_S32x1376x8_S32x11008 := by
  show StableHlo.after [_, _] W _ = _
  simp only [StableHlo.after_cons, StableHlo.after_nil]
  rw [StableHlo.reshape_result, StableHlo.nary_result]
  rfl

/-- Neither of the last two operations writes a buffer other than its own result. -/
theorem last_two_keeps (W : Valuation τ sig (Elt Ideal)) (r : Ref sig .tc) (h43 : r ≠ main_v43) (h44 : r ≠ main_v44) :
    StableHlo.after (List.drop 59 (hostOps0 : List (HloOp τ sig (Elt Ideal)))) W (Proc.devRef .tc r) = W (Proc.devRef .tc r) := by
  show StableHlo.after [_, _] W _ = _
  simp only [StableHlo.after_cons, StableHlo.after_nil]
  rw [StableHlo.reshape_result_ne (h := h44), StableHlo.nary_result_ne (h := h43)]

/-- The operations before the region, cut before the last two. -/
theorem after_split (V₁ : Valuation τ sig (Elt Ideal)) :
    StableHlo.after (hostOps0 : List (HloOp τ sig (Elt Ideal))) V₁
      = StableHlo.after (List.drop 59 hostOps0) (StableHlo.after (List.take 59 hostOps0) V₁) := by
  rw [← StableHlo.after_append, List.take_append_drop]

/-- The unpacked table as the region finds it, in terms of the eight pieces as the region finds them. -/
theorem V_zero_term (c : Dev nD) :
    (V m c main_v44 : S32x11008.Idx → BitVec 32)
      = shapeCast S32x11008 (concatenate S32x1376x8 2 [
          ⟨S32x1376x1, (V m c main_v35 : S32x1376x1.Idx → BitVec 32)⟩, ⟨S32x1376x1, (V m c main_v36 : S32x1376x1.Idx → BitVec 32)⟩,
          ⟨S32x1376x1, (V m c main_v37 : S32x1376x1.Idx → BitVec 32)⟩, ⟨S32x1376x1, (V m c main_v38 : S32x1376x1.Idx → BitVec 32)⟩,
          ⟨S32x1376x1, (V m c main_v39 : S32x1376x1.Idx → BitVec 32)⟩, ⟨S32x1376x1, (V m c main_v40 : S32x1376x1.Idx → BitVec 32)⟩,
          ⟨S32x1376x1, (V m c main_v41 : S32x1376x1.Idx → BitVec 32)⟩, ⟨S32x1376x1, (V m c main_v42 : S32x1376x1.Idx → BitVec 32)⟩]
          concatenates_S32x1376x1_S32x1376x1_S32x1376x1_S32x1376x1_S32x1376x1_S32x1376x1_S32x1376x1_S32x1376x1_S32x1376x8_d2) shapeCasts_S32x1376x8_S32x11008 := by
  have hs := after_split (fun b => m (c, b))
  have hk : ∀ r : Ref sig .tc, r ≠ main_v43 → r ≠ main_v44 →
      V m c r = StableHlo.after (List.take 59 hostOps0) (fun b => m (c, b)) (Proc.devRef .tc r) := by
    intro r h43 h44
    show StableHlo.after hostOps0 (fun b => m (c, b)) (Proc.devRef .tc r) = _
    rw [hs, last_two_keeps _ r h43 h44]
  rw [hk main_v35 (by decide) (by decide),
    hk main_v36 (by decide) (by decide),
    hk main_v37 (by decide) (by decide),
    hk main_v38 (by decide) (by decide),
    hk main_v39 (by decide) (by decide),
    hk main_v40 (by decide) (by decide),
    hk main_v41 (by decide) (by decide),
    hk main_v42 (by decide) (by decide)]
  show StableHlo.after hostOps0 (fun b => m (c, b)) (Proc.devRef .tc main_v44) = _
  rw [hs]
  exact last_two _

/-- Piece 0: the field array for the shift by 0. -/
theorem piece0 (c : Dev nD) : (V m c main_v35 : S32x1376x1.Idx → BitVec 32) = fieldArr (m ((c : Thread nD τ).loc main_arg2)) 0#32 := by
  show StableHlo.after hostOps0 (fun b => m (c, b)) (Proc.devRef .tc main_v35) = _
  after_results
  rfl

/-- Piece 1: the field array for the shift by 4. -/
theorem piece1 (c : Dev nD) : (V m c main_v36 : S32x1376x1.Idx → BitVec 32) = fieldArr (m ((c : Thread nD τ).loc main_arg2)) 4#32 := by
  show StableHlo.after hostOps0 (fun b => m (c, b)) (Proc.devRef .tc main_v36) = _
  after_results
  rfl

/-- Piece 2: the field array for the shift by 8. -/
theorem piece2 (c : Dev nD) : (V m c main_v37 : S32x1376x1.Idx → BitVec 32) = fieldArr (m ((c : Thread nD τ).loc main_arg2)) 8#32 := by
  show StableHlo.after hostOps0 (fun b => m (c, b)) (Proc.devRef .tc main_v37) = _
  after_results
  rfl

/-- Piece 3: the field array for the shift by 12. -/
theorem piece3 (c : Dev nD) : (V m c main_v38 : S32x1376x1.Idx → BitVec 32) = fieldArr (m ((c : Thread nD τ).loc main_arg2)) 12#32 := by
  show StableHlo.after hostOps0 (fun b => m (c, b)) (Proc.devRef .tc main_v38) = _
  after_results
  rfl

/-- Piece 4: the field array for the shift by 16. -/
theorem piece4 (c : Dev nD) : (V m c main_v39 : S32x1376x1.Idx → BitVec 32) = fieldArr (m ((c : Thread nD τ).loc main_arg2)) 16#32 := by
  show StableHlo.after hostOps0 (fun b => m (c, b)) (Proc.devRef .tc main_v39) = _
  after_results
  rfl

/-- Piece 5: the field array for the shift by 20. -/
theorem piece5 (c : Dev nD) : (V m c main_v40 : S32x1376x1.Idx → BitVec 32) = fieldArr (m ((c : Thread nD τ).loc main_arg2)) 20#32 := by
  show StableHlo.after hostOps0 (fun b => m (c, b)) (Proc.devRef .tc main_v40) = _
  after_results
  rfl

/-- Piece 6: the field array for the shift by 24. -/
theorem piece6 (c : Dev nD) : (V m c main_v41 : S32x1376x1.Idx → BitVec 32) = fieldArr (m ((c : Thread nD τ).loc main_arg2)) 24#32 := by
  show StableHlo.after hostOps0 (fun b => m (c, b)) (Proc.devRef .tc main_v41) = _
  after_results
  rfl

/-- Piece 7: the field array for the shift by 28. -/
theorem piece7 (c : Dev nD) : (V m c main_v42 : S32x1376x1.Idx → BitVec 32) = fieldArr (m ((c : Thread nD τ).loc main_arg2)) 28#32 := by
  show StableHlo.after hostOps0 (fun b => m (c, b)) (Proc.devRef .tc main_v42) = _
  after_results
  rfl

/-- The activations as the region finds them: flattened to a matrix (row `512 b + s`) and narrowed, which over the
    extended reals changes no value. -/
theorem V_act (c : Dev nD) (j : S2048x4096.Idx) :
    (V m c main_v1 : S2048x4096.Idx → EReal) j
      = (m ((c : Thread nD τ).loc main_arg0) : S4x512x4096.Idx → EReal)
          (ix3 (⟨(j 0).val / 512, by have h0 : (j 0).val < 2048 := (j 0).isLt; omega⟩ : Fin 4) (⟨(j 0).val % 512, Nat.mod_lt _ (by decide)⟩ : Fin 512) (j 1)) := by
  -- the two operations composed: the flattening, then the narrowing (the identity on values)
  have e : (V m c main_v1 : S2048x4096.Idx → EReal)
      = shapeCast S2048x4096 (m ((c : Thread nD τ).loc main_arg0) : S4x512x4096.Idx → EReal) shapeCasts_S4x512x4096_S2048x4096 := by
    show StableHlo.after hostOps0 (fun b => m (c, b)) (Proc.devRef .tc main_v1) = _
    after_results
    rfl
  rw [e]
  -- row `j 0 = 512 b + s` of the matrix is position `(b, s)`: the same row-major position
  exact shapeCast_apply _ shapeCasts_S4x512x4096_S2048x4096 j _
    (by rw [Shape.rowMajor_val_three, Shape.rowMajor_val_two]
        have h0 : (j 0).val < 2048 := (j 0).isLt
        show ((j 0).val / 512 * 512 + (j 0).val % 512) * 4096 + (j 1).val = (j 0).val * 4096 + (j 1).val
        omega)

/-- The zero points as the region finds them: unpacked, one word per group and column. -/
theorem V_zero (c : Dev nD) :
    (V m c main_v44 : S32x11008.Idx → BitVec 32) = Cert.QLinear.zTab (m ((c : Thread nD τ).loc main_arg2)) := by
  rw [V_zero_term, piece0, piece1, piece2, piece3, piece4, piece5, piece6, piece7]
  funext j
  have h0 : (j 0).val < 32 := (j 0).isLt
  have h1 : (j 1).val < 11008 := (j 1).isLt
  -- column `n` of the flattened table is word `n / 8`, field `n % 8`: the same row-major position
  rw [shapeCast_apply _ shapeCasts_S32x1376x8_S32x11008 j
    (ix3 (j 0) (⟨(j 1).val / 8, by omega⟩ : Fin 1376) (⟨(j 1).val % 8, Nat.mod_lt _ (by decide)⟩ : Fin 8))
    (by rw [Shape.rowMajor_val_three, Shape.rowMajor_val_two]
        show ((j 0).val * 1376 + (j 1).val / 8) * 8 + (j 1).val % 8 = (j 0).val * 11008 + (j 1).val
        omega)]
  -- the pieces as one family: piece `p` shifts by `4p`
  refine (concat8_apply (fun p : Fin 8 => fieldArr (m ((c : Thread nD τ).loc main_arg2)) (BitVec.ofNat 32 (4 * p.val)))
    (j 0) (⟨(j 1).val / 8, by omega⟩ : Fin 1376) (⟨(j 1).val % 8, Nat.mod_lt _ (by decide)⟩ : Fin 8)).trans ?_
  exact fieldArr_apply _ ((j 1).val % 8) (Nat.mod_lt _ (by decide)) (j 0) _ 0

/-- The bias as the region finds it: a single row. -/
theorem V_bias (c : Dev nD) (j : S1x11008.Idx) :
    (V m c main_v2 : S1x11008.Idx → EReal) j = (m ((c : Thread nD τ).loc main_arg4) : S11008.Idx → EReal) (ix1 (j 1)) := by
  have e : (V m c main_v2 : S1x11008.Idx → EReal)
      = shapeCast S1x11008 (m ((c : Thread nD τ).loc main_arg4) : S11008.Idx → EReal) shapeCasts_S11008_S1x11008 := by
    show StableHlo.after hostOps0 (fun b => m (c, b)) (Proc.devRef .tc main_v2) = _
    after_results
    rfl
  rw [e]
  -- the single row's index is 0, so position `0 · 11008 + n` is `n`
  exact shapeCast_apply _ shapeCasts_S11008_S1x11008 j (ix1 (j 1))
    (by rw [Shape.rowMajor_val_one, Shape.rowMajor_val_two]
        have h0 : (j 0).val < 1 := (j 0).isLt
        show (j 1).val = (j 0).val * 11008 + (j 1).val
        omega)

/-- The program's result: the region's output matrix unflattened, row `512 b + s` to `(b, s)`. -/
theorem tail_result (dats : (p : Fin 1) → (c : Dev nD) → Dat τ (Elt Ideal) Unit ℕ (UR sig nD τ) ℕ (cfgs p) c) (c : Dev nD) :
    (Pipeline.afterTail₀ cfgs dats 0 (V0 m) [hostOps1] c main_v46 : S4x512x11008.Idx → EReal)
      = fun (i : S4x512x11008.Idx) => ((dats 0 c).arrAt 5 cfg0.N : S2048x11008.Idx → EReal)
          (ix2 (⟨(i 0).val * 512 + (i 1).val, by have h0 : (i 0).val < 4 := (i 0).isLt; have h1 : (i 1).val < 512 := (i 1).isLt; omega⟩ : Fin 2048) (i 2)) := by
  -- the one operation after the region reshapes the region's output array, which is window 5's array
  have e : (Pipeline.afterTail₀ cfgs dats 0 (V0 m) [hostOps1] c main_v46 : S4x512x11008.Idx → EReal)
      = shapeCast S4x512x11008 ((dats 0 c).arrAt 5 cfg0.N : S2048x11008.Idx → EReal) shapeCasts_S2048x11008_S4x512x11008 := by
    unfold Pipeline.afterTail₀
    show StableHlo.after hostOps1 _ (Proc.devRef .tc main_v46) = _
    after_results
    have hw := Pipeline.withArrays_arr spec0 launch0.win.arr_inj c (V0 m c) (fun w => (dats 0 c).arrAt w (cfgs 0).N) 5
    rw [hw]
    rfl
  rw [e]
  funext i
  -- position `(b, s, n)` and row `512 b + s`, column `n` are the same row-major position
  exact shapeCast_apply _ shapeCasts_S2048x11008_S4x512x11008 i _
    (by rw [Shape.rowMajor_val_three, Shape.rowMajor_val_two]
        rfl)

end Cert.KernelIdeal.HostValue

end
-- ==== Proof.Bridge.lean ====
/-
  The layer as the kernel accumulates it is the layer.

  The kernel adds zero, then the products of the lower 2048 rows, then those of the upper 2048 rows, then the bias,
  over the rows `m = 512 b + s` of the flattened activations; the layer sums all 4096 rows and adds the bias, at
  `(b, s)`. Zero is neutral, the two halves are all the rows, and `m / 512 = b`, `m % 512 = s`.
-/
import proofs.«403328_j39084202394119_3_alg».proof.Proof.Spec

noncomputable section

namespace Cert.QLinear

open Idealize.ShloMosaic Idealize.ShloMosaic.ValueIdx

/-- The flattened row of `(b, s)`. -/
def flatRow (b : Fin 4) (s : Fin 512) : Fin 2048 := ⟨b.val * 512 + s.val, by omega⟩

theorem K2_eq_G (x : (⟨3, ![4, 512, 4096]⟩ : Shape).Idx → EReal) (qw : (⟨2, ![512, 11008]⟩ : Shape).Idx → BitVec 32)
    (qz : (⟨2, ![32, 1376]⟩ : Shape).Idx → BitVec 32) (sc : (⟨2, ![32, 11008]⟩ : Shape).Idx → EReal)
    (bias : (⟨1, ![11008]⟩ : Shape).Idx → EReal)
    (x2 : (⟨2, ![2048, 4096]⟩ : Shape).Idx → EReal) (b2 : (⟨2, ![1, 11008]⟩ : Shape).Idx → EReal)
    (hx : ∀ j : (⟨2, ![2048, 4096]⟩ : Shape).Idx, x2 j
      = x (ix3 (⟨(j 0).val / 512, by have h0 : (j 0).val < 2048 := (j 0).isLt; omega⟩ : Fin 4)
            (⟨(j 0).val % 512, Nat.mod_lt _ (by decide)⟩ : Fin 512) (j 1)))
    (hb : ∀ j : (⟨2, ![1, 11008]⟩ : Shape).Idx, b2 j = bias (ix1 (j 1)))
    (i : (⟨3, ![4, 512, 11008]⟩ : Shape).Idx) :
    K2 x2 qw (zTab qz) sc b2 (ix2 (flatRow (i 0) (i 1)) (i 2)) = G x qw qz sc bias i := by
  have h0 : (i 0).val < 4 := (i 0).isLt
  have h1 : (i 1).val < 512 := (i 1).isLt
  -- the flattened row's quotient and remainder by 512 are the two coordinates it was built from
  have hrow : ∀ R : Fin 4096, x2 (ix2 (flatRow (i 0) (i 1)) R) = x (ix3 (i 0) (i 1) R) := by
    intro R
    rw [hx]
    refine congrArg x (funext fun a => ?_)
    match a with
    | ⟨0, _⟩ => exact Fin.ext (by show ((i 0).val * 512 + (i 1).val) / 512 = (i 0).val; omega)
    | ⟨1, _⟩ => exact Fin.ext (by show ((i 0).val * 512 + (i 1).val) % 512 = (i 1).val; omega)
    | ⟨2, _⟩ => rfl
  unfold K2 G
  rw [sum_rows_split, zero_add, hb]
  refine congrArg (· + bias (ix1 (i 2))) ?_
  refine congrArg₂ (· + ·) (Finset.sum_congr rfl fun r _ => ?_) (Finset.sum_congr rfl fun r _ => ?_)
  · exact congrArg (· * wOf qw (zTab qz) sc (rowLo r) (i 2)) (hrow (rowLo r))
  · exact congrArg (· * wOf qw (zTab qz) sc (rowHi r) (i 2)) (hrow (rowHi r))

end Cert.QLinear

end
-- ==== Proof.Final.lean ====
/-
  The program's result, over the extended reals, is the layer of its arguments.

  The pipeline writes the output's block back after the odd points only, where the buffer holds the tile's block of
  the layer as the kernel accumulates it; the 43 tiles cover the result matrix (column `j` lies in tile `j / 256`,
  written back after point `2 (j / 256) + 1`); so the matrix ends at that function of the staged arrays. The host
  operation after the region unflattens it; the staged arrays are the arguments flattened, narrowed (no change of
  value over the extended reals), unpacked, or as launched; and the kernel's order of accumulation sums all the rows.
-/
import proofs.«403328_j39084202394119_3_alg».proof.Proof.Running
import proofs.«403328_j39084202394119_3_alg».proof.Proof.HostSide
import proofs.«403328_j39084202394119_3_alg».proof.Proof.Bridge

set_option maxRecDepth 16384

noncomputable section

namespace Cert.KernelIdeal.Around

open Cert.KernelIdeal Cert.KernelIdeal.Gen Cert.QLinear
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer as the kernel accumulates it, of the arrays the windows stage. -/
abbrev staged (c : Dev nD) : S2048x11008.Idx → EReal :=
  K2 (xArr m c) (qArr m c) (zArr m c) (sArr m c) (bArr m c)

/-- What a write-back writes is its tile's block of that function. -/
theorem flushed_eq (c : Dev nD) (t : Fin cfg0.N) (hf : (cfg0.win 5).flush t = true) :
    (dats m 0 c).flushed 5 t = ((cfg0.win 5).blk t).view.read (Elt Ideal) (staged m c) := by
  have hodd : ¬t.val % 2 = 0 := by have := (flush0_5 t).mp hf; omega
  show (cfg0.win 5).cut (grid0.coords t) ((dats m 0 c).after 5 t) = _
  rw [after_5]
  funext j
  obtain ⟨r, n, rfl⟩ : ∃ (r : Fin 2048) (n : Fin 256), j = ix2 r n := ⟨j 0, j 1, eq_ix2 j⟩
  show outsAt m c t.val t.isLt (ix2 r n) = staged m c (((cfg0.win 5).blk t).view.emb (ix2 r n))
  rw [oBlk_emb t r n]
  exact odd_val m c t hodd r n

/-- The result matrix after the run. -/
theorem final_o (c : Dev nD) : (dats m 0 c).arrAt 5 cfg0.N = staged m c :=
  (dats m 0 c).arrAt_eq_of_cover 5 (staged m c) (flushed_eq m c) fun i => by
    have h1 : (i 1).val < 11008 := (i 1).isLt
    refine ⟨⟨2 * ((i 1).val / 256) + 1, by rw [show cfg0.N = 86 from N_0]; omega⟩, ?_, ?_⟩
    · exact (flush0_5 _).mpr (by show (2 * ((i 1).val / 256) + 1) % 2 = 1; omega)
    · rw [mem_oBlk]
      show 256 * ((2 * ((i 1).val / 256) + 1) / 2) ≤ (i 1).val ∧ (i 1).val < 256 * ((2 * ((i 1).val / 256) + 1) / 2) + 256
      omega

/-- The program's result buffer after the run: the layer of the launch contents of the arguments. -/
theorem result_eq (c : Dev nD) :
    (Pipeline.afterTail₀ cfgs (dats m) 0 (V0 m) [hostOps1] c main_v46 : S4x512x11008.Idx → EReal)
      = G (m ((c : Thread nD τ).loc main_arg0)) (m ((c : Thread nD τ).loc main_arg1)) (m ((c : Thread nD τ).loc main_arg2))
          (m ((c : Thread nD τ).loc main_arg3)) (m ((c : Thread nD τ).loc main_arg4)) := by
  rw [HostValue.tail_result m (dats m) c, final_o m c]
  funext i
  have hq : qArr m c = m ((c : Thread nD τ).loc main_arg1) := V_main_arg1 m c
  have hs : sArr m c = m ((c : Thread nD τ).loc main_arg3) := V_main_arg3 m c
  have hzz : zArr m c = zTab (m ((c : Thread nD τ).loc main_arg2)) := HostValue.V_zero m c
  show K2 (xArr m c) (qArr m c) (zArr m c) (sArr m c) (bArr m c) (ix2 (flatRow (i 0) (i 1)) (i 2)) = _
  rw [hq, hs, hzz]
  exact K2_eq_G _ _ _ _ _ (xArr m c) (bArr m c) (fun j => HostValue.V_act m c j) (fun j => HostValue.V_bias m c j) i

/-- THE RUN, READ: the result at the layer of the arguments, the arguments as launched. -/
theorem run_value : θ_run defs (onTc (τ := τ) (main (F := Ideal))) ⟨m, fun _ => 0, ρ⟩ (fun r => ∀ c : Dev nD,
      r.2.mem ((c.tc : Thread nD τ).loc main_v46)
        = G (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v46 (Pipeline.mem_restRefs_of main_v46 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c))),
     ((h c).2 main_arg4 (Pipeline.mem_restRefs_of main_arg4 (by decide) (by decide))).trans (W_main_arg4 m (dats m) c)⟩)
    (run_main m ρ)

end Cert.KernelIdeal.Around

end
-- ==== Proof.RefSide.lean ====
/-
  The reference program read at an index: its run's result term is the layer's function of the argument arrays.
-/
import proofs.«403328_j39084202394119_3_alg».proof.Proof.Gen.ReferenceIdeal.Run
import proofs.«403328_j39084202394119_3_alg».proof.Proof.Gen.ReferenceIdeal.Read
import proofs.«403328_j39084202394119_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The shift amounts: lane `p` of `0 + 4 · iota` is the word `4 p`. -/
theorem shift_at (p : S8.Idx) : Read.val_main_v4 (F := Ideal) p = BitVec.ofNat 32 (4 * (p 0).val) := by
  rw [Read.val_main_v4_apply, Read.val_main_v3_apply, Read.val_main_c_0_apply, Read.val_main_v2_apply,
    Read.val_main_v1_apply, Read.val_main_c_apply, Read.val_main_v0_apply]
  show (0#32 + 4#32 * BitVec.ofNat 32 (p 0).val) = _
  have hp : (p 0).val < 8 := (p 0).isLt
  apply BitVec.eq_of_toNat_eq
  rw [BitVec.zero_add, BitVec.toNat_mul, BitVec.toNat_ofNat, BitVec.toNat_ofNat, BitVec.toNat_ofNat]
  omega

/-- An arithmetic shift by the word `4 p` (`p < 8`, so the amount is below the width) and a mask by 15 is field `p`. -/
theorem shr_and (w : BitVec 32) (p : Nat) (hp : p < 8) :
    IntOp.andi (IntOp.shrsi .host w (BitVec.ofNat 32 (4 * p))) 15#32 = Cert.QLinear.nib w p := by
  have h : (BitVec.ofNat 32 (4 * p)).toNat = 4 * p := by
    rw [BitVec.toNat_ofNat]; omega
  unfold IntOp.shrsi IntOp.andi Cert.QLinear.nib
  rw [if_pos (by rw [h]; omega)]
  unfold BitVec.sshiftRight'
  rw [h]

/-- The weight's words shifted and masked, at an index of the 512 × 8 × 11008 array: field `j 1` of the word at `(j 0, j 2)`. -/
theorem v11_at (x1 : (⟨S512x11008, .i32⟩ : BufTy).Contents (Elt Ideal)) (j : S512x8x11008.Idx) :
    Read.val_main_v11 (F := Ideal) x1 j = Cert.QLinear.nib (x1 (ix2 (j 0) (j 2))) (j 1).val := by
  rw [Read.val_main_v11_apply, Read.val_main_v10_apply, Read.val_main_c_1_apply, Read.val_main_v9_apply,
    Read.val_main_v7_apply, Read.val_main_v5_apply, Read.val_main_v8_apply, Read.val_main_v6_apply, shift_at]
  have e : Read.idx_main_v5 (Read.idx_main_v7 j) = ix2 (j 0) (j 2) := funext fun a => by
    match a with
    | ⟨0, _⟩ => rfl
    | ⟨1, _⟩ => rfl
  rw [e]
  exact shr_and _ _ (j 1).isLt

/-- The packed weights unpacked, at row `R` and column `n`: row `R` is field `R % 8` of word-row `R / 8`. -/
theorem v12_at (x1 : (⟨S512x11008, .i32⟩ : BufTy).Contents (Elt Ideal)) (R : Fin 4096) (n : Fin 11008) :
    Read.val_main_v12 (F := Ideal) x1 (ix2 R n) = Cert.QLinear.qAt x1 R n := by
  rw [Read.val_main_v12_apply, v11_at]
  unfold Cert.QLinear.qAt
  have hR : R.val < 4096 := R.isLt
  have hn : n.val < 11008 := n.isLt
  have e0 : Read.idx_main_v12 (ix2 R n) 0 = (⟨R.val / 8, by omega⟩ : Fin 512) := Fin.ext (by
    show (R.val * 11008 + n.val) / 88064 = R.val / 8; omega)
  have e1 : (Read.idx_main_v12 (ix2 R n) 1).val = R.val % 8 := by
    show (R.val * 11008 + n.val) / 11008 % 8 = R.val % 8; omega
  have e2 : Read.idx_main_v12 (ix2 R n) 2 = n := Fin.ext (by
    show (R.val * 11008 + n.val) % 11008 = n.val; omega)
  rw [e0, e1, e2]

/-- The zero points' words shifted and masked, at an index of the 32 × 1376 × 8 array: field `j 2` of the word at `(j 0, j 1)`. -/
theorem v19_at (x2 : (⟨S32x1376, .i32⟩ : BufTy).Contents (Elt Ideal)) (j : S32x1376x8.Idx) :
    Read.val_main_v19 (F := Ideal) x2 j = Cert.QLinear.nib (x2 (ix2 (j 0) (j 1))) (j 2).val := by
  rw [Read.val_main_v19_apply, Read.val_main_v18_apply, Read.val_main_c_2_apply, Read.val_main_v17_apply,
    Read.val_main_v15_apply, Read.val_main_v13_apply, Read.val_main_v16_apply, Read.val_main_v14_apply, shift_at]
  have e : Read.idx_main_v13 (Read.idx_main_v15 j) = ix2 (j 0) (j 1) := funext fun a => by
    match a with
    | ⟨0, _⟩ => rfl
    | ⟨1, _⟩ => rfl
  rw [e]
  exact shr_and _ _ (j 2).isLt

/-- The packed zero points unpacked, at group `g` and column `n`: column `n` is field `n % 8` of word-column `n / 8`. -/
theorem v20_at (x2 : (⟨S32x1376, .i32⟩ : BufTy).Contents (Elt Ideal)) (g : Fin 32) (n : Fin 11008) :
    Read.val_main_v20 (F := Ideal) x2 (ix2 g n) = Cert.QLinear.zAt x2 g n := by
  rw [Read.val_main_v20_apply, v19_at]
  unfold Cert.QLinear.zAt
  have hg : g.val < 32 := g.isLt
  have hn : n.val < 11008 := n.isLt
  have e0 : Read.idx_main_v20 (ix2 g n) 0 = g := Fin.ext (by
    show (g.val * 11008 + n.val) / 11008 = g.val; omega)
  have e1 : Read.idx_main_v20 (ix2 g n) 1 = (⟨n.val / 8, by omega⟩ : Fin 1376) := Fin.ext (by
    show (g.val * 11008 + n.val) / 8 % 1376 = n.val / 8; omega)
  have e2 : (Read.idx_main_v20 (ix2 g n) 2).val = n.val % 8 := by
    show (g.val * 11008 + n.val) % 8 = n.val % 8; omega
  rw [e0, e1, e2]

/-- The index composed of the two repeats over groups of 128 rows: row `R`, column `n` reads group `R / 128`, column `n`. -/
theorem grp_idx (R : Fin 4096) (n : Fin 11008) :
    Read.idx_main_v21 (Read.idx_main_v22 (ix2 R n)) = ix2 (Cert.QLinear.grp R) n := by
  have hR : R.val < 4096 := R.isLt
  have hn : n.val < 11008 := n.isLt
  exact funext fun a => Fin.ext (by
    match a with
    | ⟨0, _⟩ => show (R.val * 11008 + n.val) / 1409024 = R.val / 128; omega
    | ⟨1, _⟩ => show (R.val * 11008 + n.val) % 11008 = n.val; omega)

/-- The zero points repeated over each group's 128 rows, at row `R` and column `n`. -/
theorem v22_at (x2 : (⟨S32x1376, .i32⟩ : BufTy).Contents (Elt Ideal)) (R : Fin 4096) (n : Fin 11008) :
    Read.val_main_v22 (F := Ideal) x2 (ix2 R n) = Cert.QLinear.zAt x2 (Cert.QLinear.grp R) n := by
  rw [Read.val_main_v22_apply, Read.val_main_v21_apply, grp_idx, v20_at]

/-- The scales repeated over each group's 128 rows, at row `R` and column `n`. -/
theorem v24_at (x3 : (⟨S32x11008, .f32⟩ : BufTy).Contents (Elt Ideal)) (R : Fin 4096) (n : Fin 11008) :
    Read.val_main_v24 (F := Ideal) x3 (ix2 R n) = x3 (ix2 (Cert.QLinear.grp R) n) := by
  rw [Read.val_main_v24_apply, Read.val_main_v23_apply]
  exact congrArg x3 (grp_idx R n)

/-- The dequantised weight at row `R` and column `n`: the word difference of two fields, cast, is the difference of the casts. -/
theorem v27_at (x1 : (⟨S512x11008, .i32⟩ : BufTy).Contents (Elt Ideal)) (x2 : (⟨S32x1376, .i32⟩ : BufTy).Contents (Elt Ideal))
    (x3 : (⟨S32x11008, .f32⟩ : BufTy).Contents (Elt Ideal)) (R : Fin 4096) (n : Fin 11008) :
    Read.val_main_v27 (F := Ideal) x1 x2 x3 (ix2 R n) = Cert.QLinear.wOf x1 (Cert.QLinear.zTab x2) x3 R n := by
  rw [Read.val_main_v27_apply, Read.val_main_v26_apply, Read.val_main_v25_apply, v12_at, v22_at, v24_at]
  unfold Cert.QLinear.wOf
  have ez : Cert.QLinear.zTab x2 (ix2 (Cert.QLinear.grp R) n) = Cert.QLinear.zAt x2 (Cert.QLinear.grp R) n := rfl
  rw [ez]
  show ((((IntOp.subi (Cert.QLinear.qAt x1 R n) (Cert.QLinear.zAt x2 (Cert.QLinear.grp R) n)).toInt : ℝ) : EReal)) * _ = _
  have ed : (IntOp.subi (Cert.QLinear.qAt x1 R n) (Cert.QLinear.zAt x2 (Cert.QLinear.grp R) n)).toInt
      = (Cert.QLinear.qAt x1 R n).toInt - (Cert.QLinear.zAt x2 (Cert.QLinear.grp R) n).toInt := by
    unfold IntOp.subi Cert.QLinear.qAt Cert.QLinear.zAt
    exact Cert.QLinear.toInt_sub_nib _ _ _ _
  rw [ed, Int.cast_sub, EReal.coe_sub]

/-- The reference's result, stage by stage down from the last, is the layer: the shifts by `4 · iota` are the fields,
    the two repeats are the groups of 128 rows, the integer difference of two fields cast to a real is the difference
    of the reals, and the contraction is the sum over all rows. -/
theorem ref_eq_G (x0 : (⟨S4x512x4096, .f32⟩ : BufTy).Contents (Elt Ideal)) (x1 : (⟨S512x11008, .i32⟩ : BufTy).Contents (Elt Ideal))
    (x2 : (⟨S32x1376, .i32⟩ : BufTy).Contents (Elt Ideal)) (x3 : (⟨S32x11008, .f32⟩ : BufTy).Contents (Elt Ideal))
    (x4 : (⟨S11008, .f32⟩ : BufTy).Contents (Elt Ideal)) :
    Read.val_main_v31 (F := Ideal) x0 x1 x2 x3 x4 = Cert.QLinear.G x0 x1 x2 x3 x4 := by
  funext i
  rw [Read.val_main_v31_apply, Read.val_main_v28_apply, Read.val_main_v30_apply, Read.val_main_v29_apply]
  unfold Cert.QLinear.G
  have eb : Read.idx_main_v29 (Read.idx_main_v30 i) = ix1 (i 2) := funext fun a => by
    match a with
    | ⟨0, _⟩ => rfl
  rw [eb]
  show (∑ k : Fin 4096, x0 (Read.lidx_main_v28 i k) * Read.val_main_v27 (F := Ideal) x1 x2 x3 (Read.ridx_main_v28 i k)) + _ = _
  refine congrArg (· + x4 (ix1 (i 2))) ?_
  refine Finset.sum_congr rfl fun k _ => ?_
  have el : Read.lidx_main_v28 i k = ix3 (n0 := 4) (n1 := 512) (n2 := 4096) (i 0) (i 1) k := funext fun a => by
    match a with
    | ⟨0, _⟩ => rfl
    | ⟨1, _⟩ => rfl
    | ⟨2, _⟩ => rfl
  have er : Read.ridx_main_v28 i k = ix2 (n0 := 4096) (n1 := 11008) k (i 2) := funext fun a => by
    match a with
    | ⟨0, _⟩ => rfl
    | ⟨1, _⟩ => rfl
  rw [el, er]
  exact congrArg (x0 (ix3 (n0 := 4) (n1 := 512) (n2 := 4096) (i 0) (i 1) k) * ·) (v27_at x1 x2 x3 k (i 2))

end Cert.ReferenceIdeal.RefValue

end
-- ==== Proof.lean ====
/-
  A weight-only four-bit quantised linear layer against its plain reference, over the extended reals.

  The kernel tiles the 11008 output columns in 43 tiles of 256 and the 4096 contracted rows in two halves of 2048. For
  each column tile it clears an accumulator, and for each row half it unpacks the packed weight tile (eight four-bit
  fields per word, along the rows), subtracts the group's zero point (unpacked beforehand by the host operations,
  eight fields per word along the columns), multiplies by the group's scale, multiplies the activations' column half
  by the result and adds it to the accumulator; after the second half it adds the bias. The reference unpacks the
  whole matrix, subtracts the zero points as integers, casts, scales, contracts all 4096 rows at once and adds the
  bias.

  Over the extended reals the two are one function of the arguments: a change of float format changes no value, the
  fields lie in [0, 15] so the difference of two fields cast to a real is the difference of the casts, zero is
  neutral, and the sum over all rows is the sum over the lower half plus the sum over the upper half. None of this
  needs the inputs finite, so the precondition is never opened.

  The three frames: the kernel program's (at both instances) is the pipelined region's run between the host
  operations — the body run once per parity of the grid point, the accumulator carried from each even point to the
  odd point after it —; the reference's is its run with the result dropped. The idealisation rewrote nothing.
-/
import proofs.«403328_j39084202394119_3_alg».proof.Defs
import proofs.«403328_j39084202394119_3_alg».proof.Proof.Gen.Kernel
import proofs.«403328_j39084202394119_3_alg».proof.Proof.Gen.KernelIdeal
import proofs.«403328_j39084202394119_3_alg».proof.Proof.Gen.ReferenceIdeal
import proofs.«403328_j39084202394119_3_alg».proof.Proof.Gen.Pre_finite_inputs
import proofs.«403328_j39084202394119_3_alg».proof.Proof.FrameB
import proofs.«403328_j39084202394119_3_alg».proof.Proof.Final
import proofs.«403328_j39084202394119_3_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Around.frame m ρ

theorem frame_ki : Cert.frame_KernelIdeal := fun m ρ _ => Cert.KernelIdeal.Around.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the layer of the arguments: the kernel's by its run read as values, the reference's by its run
    read stage by stage, from memories that agree on the arguments. -/
theorem algebraic : Cert.algebraic_KernelIdeal_ReferenceIdeal := by
  intro m ρ m' ρ' _ hagree
  refine ⟨_, Cert.KernelIdeal.Around.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v31_eq _ _ _ _ _).trans (Cert.ReferenceIdeal.RefValue.ref_eq_G _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
